-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000x256 : Shape := ⟨2, ![320000, 256]⟩
abbrev S768x512 : Shape := ⟨2, ![768, 512]⟩
abbrev S512 : Shape := ⟨1, ![512]⟩
abbrev S512x512 : Shape := ⟨2, ![512, 512]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S512x512 .f32) (main_arg6 : FVec F S512 .f32) (main_arg7 : FVec F S512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_v33

def fn {F : FTy → Type} [FloatOps F] (main_arg0 : FVec F S10000x256 .f32) (main_arg1 : IVec S2x320000 32) (main_arg2 : FVec F S320000x256 .f32) (main_arg3 : FVec F S768x512 .f32) (main_arg4 : FVec F S512 .f32) (main_arg5 : FVec F S512x512 .f32) (main_arg6 : FVec F S512 .f32) (main_arg7 : FVec F S512 .f32) (main_arg8 : FVec F S512 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x256 .f32 := Host.absf main_arg2
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S768x512 .f32 := Host.absf main_arg3
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S10000x256 : Shape := ⟨2, ![10000, 256]⟩
abbrev S2x320000 : Shape := ⟨2, ![2, 320000]⟩
abbrev S320000x256 : Shape := ⟨2, ![320000, 256]⟩
abbrev S768x512 : Shape := ⟨2, ![768, 512]⟩
abbrev S512 : Shape := ⟨1, ![512]⟩
abbrev S512x512 : Shape := ⟨2, ![512, 512]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S256x512 : Shape := ⟨2, ![256, 512]⟩
abbrev S1x512 : Shape := ⟨2, ![1, 512]⟩
abbrev S320000x512 : Shape := ⟨2, ![320000, 512]⟩
abbrev S1280x256 : Shape := ⟨2, ![1280, 256]⟩
abbrev S1280x512 : Shape := ⟨2, ![1280, 512]⟩
abbrev S10000x512 : Shape := ⟨2, ![10000, 512]⟩

abbrev nBuf : Space → Nat
  | .hbm => 88
  | .vmem => 14
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x256, .f32⟩
  | .hbm, ⟨3, _⟩ => ⟨S768x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S320000x256, .f32⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S320000x256, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S1x512, .f32⟩
  | .hbm, ⟨35, _⟩ => ⟨S1x512, .f32⟩
  | .hbm, ⟨36, _⟩ => ⟨S320000x512, .f32⟩
  | .hbm, ⟨37, _⟩ => ⟨S_, .f32⟩
  | .hbm, ⟨38, _⟩ => ⟨S10000x512, .f32⟩
  | .hbm, ⟨39, _⟩ => ⟨S320000x1, .i32⟩
  | .hbm, ⟨40, _⟩ => ⟨S10000x512, .f32⟩
  | .hbm, ⟨41, _⟩ => ⟨S_, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S_, .i32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S_, .f32⟩
  | .hbm, ⟨51, _⟩ => ⟨S1x512, .f32⟩
  | .hbm, ⟨52, _⟩ => ⟨S1x512, .f32⟩
  | .hbm, ⟨53, _⟩ => ⟨S10000x512, .f32⟩
  | .hbm, ⟨54, _⟩ => ⟨S10000x512, .f32⟩
  | .hbm, ⟨55, _⟩ => ⟨S10000x512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S512, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S512, .f32⟩
  | .hbm, ⟨68, _⟩ => ⟨S512, .f32⟩
  | .hbm, ⟨69, _⟩ => ⟨S1x512, .f32⟩
  | .hbm, ⟨70, _⟩ => ⟨S10000x512, .f32⟩
  | .hbm, ⟨71, _⟩ => ⟨S10000x512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S512, .f32⟩
  | .hbm, ⟨76, _⟩ => ⟨S1x512, .f32⟩
  | .hbm, ⟨77, _⟩ => ⟨S10000x512, .f32⟩
  | .hbm, ⟨78, _⟩ => ⟨S10000x512, .f32⟩
  | .hbm, ⟨79, _⟩ => ⟨S1x512, .f32⟩
  | .hbm, ⟨80, _⟩ => ⟨S10000x512, .f32⟩
  | .hbm, ⟨81, _⟩ => ⟨S10000x512, .f32⟩
  | .hbm, ⟨82, _⟩ => ⟨S1x512, .f32⟩
  | .hbm, ⟨83, _⟩ => ⟨S10000x512, .f32⟩
  | .hbm, ⟨84, _⟩ => ⟨S10000x512, .f32⟩
  | .hbm, ⟨85, _⟩ => ⟨S_, .f32⟩
  | .hbm, ⟨86, _⟩ => ⟨S10000x512, .f32⟩
  | .hbm, ⟨87, _⟩ => ⟨S10000x512, .f32⟩
  | .local _ .vmem, ⟨0, _⟩ => ⟨S1280x256, .f32⟩
  | .local _ .vmem, ⟨1, _⟩ => ⟨S1280x256, .f32⟩
  | .local _ .vmem, ⟨2, _⟩ => ⟨S1280x256, .f32⟩
  | .local _ .vmem, ⟨3, _⟩ => ⟨S1280x256, .f32⟩
  | .local _ .vmem, ⟨4, _⟩ => ⟨S1280x256, .f32⟩
  | .local _ .vmem, ⟨5, _⟩ => ⟨S1280x256, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S1280x512, .f32⟩
  | .local _ .vmem, ⟨13, _⟩ => ⟨S1280x512, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_6 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call1_cst : Ref sig .tc := ⟨.hbm, 85, rfl⟩
abbrev main_call1_v0 : Ref sig .tc := ⟨.hbm, 86, rfl⟩
abbrev main_v46 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1280x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  slices_S768x512_S256x512_0_0 : S768x512.Slices ![0, 0] S256x512
  slices_S768x512_S256x512_256_0 : S768x512.Slices ![256, 0] S256x512
  slices_S768x512_S256x512_512_0 : S768x512.Slices ![512, 0] S256x512
  shapeCasts_S512_S1x512 : S512.ShapeCasts S1x512
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1280x512 : S1x512.Broadcasts S1280x512
  inb_S512x512_S512x512_0_0 : ∀ a, (![0, 0] : Fin 2 → Nat) a + S512x512.size a ≤ S512x512.size a
  h_S512x512 : 0 < S512x512.numel
  inb_S1280x512_S1280x512_0_0 : ∀ a, (![0, 0] : Fin 2 → Nat) a + S1280x512.size a ≤ S1280x512.size a
  h_S1280x512 : 0 < S1280x512.numel
  bcast_S_S10000x512 : S_.BroadcastsInDim S10000x512 (![] : Fin 0 → Fin S10000x512.rank)
  reducesTo_S10000x512_S512_d0 : S10000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S10000x512_0_1 : S1x512.BroadcastsInDim S10000x512 (![0, 1] : Fin 2 → Fin S10000x512.rank)
  gather_S10000x256_S320000x1_S320000x256_1_0_n_n_0_1_1256_wf : GatherDims.WF S10000x256 S320000x1 S320000x256 [1] [0] [] [0] [] 1 ![1, 256]
  dot_S1280x256_S256x512_S1280x512_1_0_0_1_n_n_wf : DotDims.WF S1280x256 S256x512 S1280x512 [1] [0] [0] [1] [] []
  dot_S1280x512_S512x512_S1280x512_1_0_0_1_n_n_wf : DotDims.WF S1280x512 S512x512 S1280x512 [1] [0] [0] [1] [] []
  scatter_S10000x512_S320000x1_S320000x512_1_0_0_1_wf : ScatterDims.WF S10000x512 S320000x1 S320000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x256.size a ≤ S320000x256.size a
  hwx0_0 : ∀ i : grid0.Coords, EltTy.bits .f32 = 32 ∨ (Rect.block (s := S320000x256) S1280x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S320000x256.size a
  hwx0_1 : ∀ i : grid0.Coords, EltTy.bits .f32 = 32 ∨ (Rect.block (s := S320000x256) S1280x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x256.size a ≤ S320000x256.size a
  hwx0_2 : ∀ i : grid0.Coords, EltTy.bits .f32 = 32 ∨ (Rect.block (s := S320000x256) S1280x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1280x512.size a ≤ S320000x512.size a
  hwx0_9 : ∀ i : grid0.Coords, EltTy.bits .f32 = 32 ∨ (Rect.block (s := S320000x512) S1280x512.size (cc0_transform_9 i) (hinb0_9 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S1280x256_S256x512_S1280x512_1_0_0_1_n_n : DotDims S1280x256 S256x512 S1280x512 where
  lhsContracting := [1]
  rhsContracting := [0]
  lhsNonContracting := [0]
  rhsNonContracting := [1]
  lhsBatch := []
  rhsBatch := []
  wf := dot_S1280x256_S256x512_S1280x512_1_0_0_1_n_n_wf
def dot_S1280x512_S512x512_S1280x512_1_0_0_1_n_n : DotDims S1280x512 S512x512 S1280x512 where
  lhsContracting := [1]
  rhsContracting := [0]
  lhsNonContracting := [0]
  rhsNonContracting := [1]
  lhsBatch := []
  rhsBatch := []
  wf := dot_S1280x512_S512x512_S1280x512_1_0_0_1_n_n_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf

abbrev win0_0 : Pipeline.Window sig grid0 :=
  Pipeline.Window.ofSpec (Memref.whole main_v10) S1280x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1280x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1280x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1280x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000x256 : Shape := ⟨2, ![320000, 256]⟩
abbrev S768x512 : Shape := ⟨2, ![768, 512]⟩
abbrev S512 : Shape := ⟨1, ![512]⟩
abbrev S512x512 : Shape := ⟨2, ![512, 512]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x768 : Shape := ⟨2, ![320000, 768]⟩
abbrev S320000x512 : Shape := ⟨2, ![320000, 512]⟩
abbrev S1x512 : Shape := ⟨2, ![1, 512]⟩
abbrev S10000x512 : Shape := ⟨2, ![10000, 512]⟩

abbrev nBuf : Space → Nat
  | .hbm => 95
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x256, .f32⟩
  | .hbm, ⟨3, _⟩ => ⟨S768x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S320000x256, .f32⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S320000x256, .f32⟩
  | .hbm, ⟨31, _⟩ => ⟨S320000x256, .f32⟩
  | .hbm, ⟨32, _⟩ => ⟨S320000x768, .f32⟩
  | .hbm, ⟨33, _⟩ => ⟨S320000x512, .f32⟩
  | .hbm, ⟨34, _⟩ => ⟨S1x512, .f32⟩
  | .hbm, ⟨35, _⟩ => ⟨S320000x512, .f32⟩
  | .hbm, ⟨36, _⟩ => ⟨S320000x512, .f32⟩
  | .hbm, ⟨37, _⟩ => ⟨S_, .f32⟩
  | .hbm, ⟨38, _⟩ => ⟨S320000x512, .f32⟩
  | .hbm, ⟨39, _⟩ => ⟨S320000x512, .f32⟩
  | .hbm, ⟨40, _⟩ => ⟨S320000x512, .f32⟩
  | .hbm, ⟨41, _⟩ => ⟨S1x512, .f32⟩
  | .hbm, ⟨42, _⟩ => ⟨S320000x512, .f32⟩
  | .hbm, ⟨43, _⟩ => ⟨S320000x512, .f32⟩
  | .hbm, ⟨44, _⟩ => ⟨S_, .f32⟩
  | .hbm, ⟨45, _⟩ => ⟨S10000x512, .f32⟩
  | .hbm, ⟨46, _⟩ => ⟨S320000x1, .i32⟩
  | .hbm, ⟨47, _⟩ => ⟨S10000x512, .f32⟩
  | .hbm, ⟨48, _⟩ => ⟨S_, .f32⟩
  | .hbm, ⟨49, _⟩ => ⟨S512, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S_, .i32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S_, .f32⟩
  | .hbm, ⟨58, _⟩ => ⟨S1x512, .f32⟩
  | .hbm, ⟨59, _⟩ => ⟨S1x512, .f32⟩
  | .hbm, ⟨60, _⟩ => ⟨S10000x512, .f32⟩
  | .hbm, ⟨61, _⟩ => ⟨S10000x512, .f32⟩
  | .hbm, ⟨62, _⟩ => ⟨S10000x512, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S512, .f32⟩
  | .hbm, ⟨68, _⟩ => ⟨S512, .f32⟩
  | .hbm, ⟨69, _⟩ => ⟨S512, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S512, .f32⟩
  | .hbm, ⟨75, _⟩ => ⟨S512, .f32⟩
  | .hbm, ⟨76, _⟩ => ⟨S1x512, .f32⟩
  | .hbm, ⟨77, _⟩ => ⟨S10000x512, .f32⟩
  | .hbm, ⟨78, _⟩ => ⟨S10000x512, .f32⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S512, .f32⟩
  | .hbm, ⟨83, _⟩ => ⟨S1x512, .f32⟩
  | .hbm, ⟨84, _⟩ => ⟨S10000x512, .f32⟩
  | .hbm, ⟨85, _⟩ => ⟨S10000x512, .f32⟩
  | .hbm, ⟨86, _⟩ => ⟨S1x512, .f32⟩
  | .hbm, ⟨87, _⟩ => ⟨S10000x512, .f32⟩
  | .hbm, ⟨88, _⟩ => ⟨S10000x512, .f32⟩
  | .hbm, ⟨89, _⟩ => ⟨S1x512, .f32⟩
  | .hbm, ⟨90, _⟩ => ⟨S10000x512, .f32⟩
  | .hbm, ⟨91, _⟩ => ⟨S10000x512, .f32⟩
  | .hbm, ⟨92, _⟩ => ⟨S_, .f32⟩
  | .hbm, ⟨93, _⟩ => ⟨S10000x512, .f32⟩
  | .hbm, ⟨94, _⟩ => ⟨S10000x512, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_cst_1 : Ref sig .tc := ⟨.hbm, 64, rfl⟩
abbrev main_call1_v8 : Ref sig .tc := ⟨.hbm, 65, rfl⟩
abbrev main_call1_cst_2 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_cst_3 : Ref sig .tc := ⟨.hbm, 70, rfl⟩
abbrev main_call1_v12 : Ref sig .tc := ⟨.hbm, 71, rfl⟩
abbrev main_call1_cst_4 : Ref sig .tc := ⟨.hbm, 72, rfl⟩
abbrev main_call1_call0_v0 : Ref sig .tc := ⟨.hbm, 73, rfl⟩
abbrev main_call1_call0_v1 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_6 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_call2_cst : Ref sig .tc := ⟨.hbm, 92, rfl⟩
abbrev main_call2_v0 : Ref sig .tc := ⟨.hbm, 93, rfl⟩
abbrev main_v51 : Ref sig .tc := ⟨.hbm, 94, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x256_S320000x768_d1 : Shape.Concatenates [S320000x256, S320000x256, S320000x256] S320000x768 1
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S_S10000x512 : S_.BroadcastsInDim S10000x512 (![] : Fin 0 → Fin S10000x512.rank)
  reducesTo_S10000x512_S512_d0 : S10000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S1x512_S10000x512_0_1 : S1x512.BroadcastsInDim S10000x512 (![0, 1] : Fin 2 → Fin S10000x512.rank)
  gather_S10000x256_S320000x1_S320000x256_1_0_n_n_0_1_1256_wf : GatherDims.WF S10000x256 S320000x1 S320000x256 [1] [0] [] [0] [] 1 ![1, 256]
  dot_S320000x768_S768x512_S320000x512_1_0_0_1_n_n_wf : DotDims.WF S320000x768 S768x512 S320000x512 [1] [0] [0] [1] [] []
  dot_S320000x512_S512x512_S320000x512_1_0_0_1_n_n_wf : DotDims.WF S320000x512 S512x512 S320000x512 [1] [0] [0] [1] [] []
  scatter_S10000x512_S320000x1_S320000x512_1_0_0_1_wf : ScatterDims.WF S10000x512 S320000x1 S320000x512 [1] [0] [0] 1

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x768_S768x512_S320000x512_1_0_0_1_n_n : DotDims S320000x768 S768x512 S320000x512 where
  lhsContracting := [1]
  rhsContracting := [0]
  lhsNonContracting := [0]
  rhsNonContracting := [1]
  lhsBatch := []
  rhsBatch := []
  wf := dot_S320000x768_S768x512_S320000x512_1_0_0_1_n_n_wf
def dot_S320000x512_S512x512_S320000x512_1_0_0_1_n_n : DotDims S320000x512 S512x512 S320000x512 where
  lhsContracting := [1]
  rhsContracting := [0]
  lhsNonContracting := [0]
  rhsNonContracting := [1]
  lhsBatch := []
  rhsBatch := []
  wf := dot_S320000x512_S512x512_S320000x512_1_0_0_1_n_n_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf

class Facts : Prop extends Facts₀ where

variable [Facts]
-- ==== Proof.RefTerm.lean ====
import proofs.«163005_j43508018708924_1_alg».proof.Proof.Gen.ReferenceIdeal

/-!
# What the reference computes, as functions of its argument arrays

A graph block over 10000 nodes and 320000 directed edges. Each edge reads the feature rows of its
target node `x_i` and of its source node `x_j`, and its own attribute row; the row
`[x_i, x_j - x_i, attr]` of 768 numbers goes through two dense layers (512 outputs each, a
`max(., 0)` between them); the 512 outputs of all edges with the same target are added up per node;
the node table is then normalised column by column with the batch mean and the batch variance,
scaled and shifted per column, and cut off at zero.

Each stage is named here once, as a pure function of arrays, so that the statement of the reference's
run, and the comparison with the kernel, speak about these functions and never about buffers.
-/

noncomputable section

namespace Cert.ReferenceIdeal.RefValue

open Cert.ReferenceIdeal Cert.ReferenceIdeal.Facts₀ Idealize.ShloMosaic Idealize.ShloMosaic.TcCoe

variable {F : FTy → Type} [FloatOps F]

/-- The edges' source nodes: row 0 of the edge list, as one vector of 320000 words. -/
def srcOf (ei : (⟨S2x320000, .i32⟩ : BufTy).Contents (Elt F)) : (⟨S320000, .i32⟩ : BufTy).Contents (Elt F) :=
  shapeCast S320000 (extractStridedSlice S1x320000 ![0, 0] ei slices_S2x320000_S1x320000_0_0) shapeCasts_S1x320000_S320000

/-- The edges' target nodes: row 1 of the edge list. -/
def dstOf (ei : (⟨S2x320000, .i32⟩ : BufTy).Contents (Elt F)) : (⟨S320000, .i32⟩ : BufTy).Contents (Elt F) :=
  shapeCast S320000 (extractStridedSlice S1x320000 ![1, 0] ei slices_S2x320000_S1x320000_1_0) shapeCasts_S1x320000_S320000

/-- Node numbers as row-gather start indices: a negative word counts from the end of the table
    (`v + 10000`), and the vector is laid out as one column. -/
def startsOf (v : (⟨S320000, .i32⟩ : BufTy).Contents (Elt F)) : (⟨S320000x1, .i32⟩ : BufTy).Contents (Elt F) :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)

/-- The node table's rows at the nodes `v` names, one row per edge. -/
def rowsOf (x : (⟨S10000x256, .f32⟩ : BufTy).Contents (Elt F)) (v : (⟨S320000, .i32⟩ : BufTy).Contents (Elt F)) :
    (⟨S320000x256, .f32⟩ : BufTy).Contents (Elt F) :=
  Host.gather gather_S10000x256_S320000x1_S320000x256_1_0_n_n_0_1_1256 x (startsOf v)

/-- A vector of 512 column values laid under every one of the 320000 edge rows. -/
def underEdges (b : (⟨S512, .f32⟩ : BufTy).Contents (Elt F)) : (⟨S320000x512, .f32⟩ : BufTy).Contents (Elt F) :=
  broadcastInDim S320000x512 ![0, 1] bcast_S1x512_S320000x512_0_1 (broadcastInDim S1x512 ![1] bcast_S512_S1x512_1 b)

/-- The first layer before its cut-off: the joined row `[x_i, x_j - x_i, attr]` times `W1`, plus `b1`. -/
def layer1 (xi xj ea : (⟨S320000x256, .f32⟩ : BufTy).Contents (Elt F)) (W1 : (⟨S768x512, .f32⟩ : BufTy).Contents (Elt F))
    (b1 : (⟨S512, .f32⟩ : BufTy).Contents (Elt F)) : (⟨S320000x512, .f32⟩ : BufTy).Contents (Elt F) :=
  addf (Host.dotGeneral dot_S320000x768_S768x512_S320000x512_1_0_0_1_n_n none
      (concatenate S320000x768 1 [⟨S320000x256, xi⟩, ⟨S320000x256, subf xj xi⟩, ⟨S320000x256, ea⟩]
        concatenates_S320000x256_S320000x256_S320000x256_S320000x768_d1) W1)
    (underEdges b1)

/-- The second layer on the cut-off first one: `max(h1, 0) · W2 + b2`, one row of 512 per edge. -/
def layer2 (h1 : (⟨S320000x512, .f32⟩ : BufTy).Contents (Elt F)) (W2 : (⟨S512x512, .f32⟩ : BufTy).Contents (Elt F))
    (b2 : (⟨S512, .f32⟩ : BufTy).Contents (Elt F)) : (⟨S320000x512, .f32⟩ : BufTy).Contents (Elt F) :=
  addf (Host.dotGeneral dot_S320000x512_S512x512_S320000x512_1_0_0_1_n_n none
      (maximumf h1 (broadcastInDim S320000x512 ![] bcast_S_S320000x512 (constant (F := F) S_ .f32 0x00000000#32))) W2)
    (underEdges b2)

/-- The edge rows added up per target node, from a table of zeros (a word that names no node adds nothing). -/
def perNode (dst : (⟨S320000, .i32⟩ : BufTy).Contents (Elt F)) (h : (⟨S320000x512, .f32⟩ : BufTy).Contents (Elt F)) :
    (⟨S10000x512, .f32⟩ : BufTy).Contents (Elt F) :=
  Host.scatterAdd scatter_S10000x512_S320000x1_S320000x512_1_0_0_1
    (broadcastInDim S10000x512 ![] bcast_S_S10000x512 (constant (F := F) S_ .f32 0x00000000#32))
    (broadcastInDim S320000x1 ![0] bcast_S320000_S320000x1_0 dst) h

/-- A vector of 512 column values laid under every one of the 10000 node rows. -/
def underNodes (v : (⟨S512, .f32⟩ : BufTy).Contents (Elt F)) : (⟨S10000x512, .f32⟩ : BufTy).Contents (Elt F) :=
  broadcastInDim S10000x512 ![0, 1] bcast_S1x512_S10000x512_0_1 (broadcastInDim S1x512 ![1] bcast_S512_S1x512_1 v)

/-- The sum of each of the 512 columns over the 10000 nodes. -/
def colSum (a : (⟨S10000x512, .f32⟩ : BufTy).Contents (Elt F)) : (⟨S512, .f32⟩ : BufTy).Contents (Elt F) :=
  Host.reduceAdd a (constant (F := F) S_ .f32 0x00000000#32) reducesTo_S10000x512_S512_d0 h_S_

/-- Each column's mean over the nodes: its sum divided by 10000. -/
def colMean (s : (⟨S10000x512, .f32⟩ : BufTy).Contents (Elt F)) : (⟨S512, .f32⟩ : BufTy).Contents (Elt F) :=
  Host.divf (colSum s) (broadcastInDim S512 ![] bcast_S_S512 (constant (F := F) S_ .f32 0x461C4000#32))

/-- Each column's variance over the nodes, as jnp computes it with no correction (`ddof = 0`): the mean square
    distance from the column's mean, the divisor `10000 - 0`; where that divisor is not positive the library
    substitutes its not-a-number word, which for this divisor never happens. -/
def colVar (s : (⟨S10000x512, .f32⟩ : BufTy).Contents (Elt F)) : (⟨S512, .f32⟩ : BufTy).Contents (Elt F) :=
  select
    (broadcastInDim S512 ![] bcast_S_S512
      (cmpf .ogt (subf (constant (F := F) S_ .f32 0x461C4000#32) (sitofp (F := F) .f32 (constantI S_ 32 0#32))) (constant (F := F) S_ .f32 0x00000000#32)))
    (Host.divf
      (colSum (mulf
        (subf s (broadcastInDim S10000x512 ![0, 1] bcast_S1x512_S10000x512_0_1
          (Host.divf (broadcastInDim S1x512 ![1] bcast_S512_S1x512_1 (colSum s))
            (broadcastInDim S1x512 ![] bcast_S_S1x512 (constant (F := F) S_ .f32 0x461C4000#32)))))
        (subf s (broadcastInDim S10000x512 ![0, 1] bcast_S1x512_S10000x512_0_1
          (Host.divf (broadcastInDim S1x512 ![1] bcast_S512_S1x512_1 (colSum s))
            (broadcastInDim S1x512 ![] bcast_S_S1x512 (constant (F := F) S_ .f32 0x461C4000#32)))))))
      (broadcastInDim S512 ![] bcast_S_S512 (subf (constant (F := F) S_ .f32 0x461C4000#32) (sitofp (F := F) .f32 (constantI S_ 32 0#32)))))
    (broadcastInDim S512 ![] bcast_S_S512 (id (constant (F := F) S_ .f32 0x7FC00000#32)))

/-- The node table normalised column by column, scaled by `gamma`, shifted by `beta`, cut off at zero:
    `max((s - mean) · rsqrt(var + eps) · gamma + beta, 0)`. -/
def normRelu (s : (⟨S10000x512, .f32⟩ : BufTy).Contents (Elt F)) (gamma beta : (⟨S512, .f32⟩ : BufTy).Contents (Elt F)) :
    (⟨S10000x512, .f32⟩ : BufTy).Contents (Elt F) :=
  maximumf
    (addf
      (mulf
        (mulf (subf s (underNodes (colMean s)))
          (underNodes (Host.rsqrt (addf (colVar s) (broadcastInDim S512 ![] bcast_S_S512 (constant (F := F) S_ .f32 0x3727C5AC#32))))))
        (underNodes gamma))
      (underNodes beta))
    (broadcastInDim S10000x512 ![] bcast_S_S10000x512 (constant (F := F) S_ .f32 0x00000000#32))

/-- The reference's result, of its nine argument arrays. -/
def out (x : (⟨S10000x256, .f32⟩ : BufTy).Contents (Elt F)) (ei : (⟨S2x320000, .i32⟩ : BufTy).Contents (Elt F))
    (ea : (⟨S320000x256, .f32⟩ : BufTy).Contents (Elt F)) (W1 : (⟨S768x512, .f32⟩ : BufTy).Contents (Elt F))
    (b1 : (⟨S512, .f32⟩ : BufTy).Contents (Elt F)) (W2 : (⟨S512x512, .f32⟩ : BufTy).Contents (Elt F))
    (b2 gamma beta : (⟨S512, .f32⟩ : BufTy).Contents (Elt F)) : (⟨S10000x512, .f32⟩ : BufTy).Contents (Elt F) :=
  normRelu (perNode (dstOf ei)
    (layer2 (layer1 (rowsOf x (dstOf ei)) (rowsOf x (srcOf ei)) ea W1 b1) W2 b2)) gamma beta

end Cert.ReferenceIdeal.RefValue

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«163005_j43508018708924_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.LibConcatDot.lean ====
import Idealize.ShloMosaic.PureOps.Ideal.Laws
import Idealize.ShloMosaic.Lib.ValueIdx
import Idealize.ShloMosaic.Lib.Pipeline.Value
import proofs.«163005_j43508018708924_1_alg».proof.Proof.LibPlainDot

noncomputable section

open scoped BigOperators

/-! # A product of three arrays side by side with one matrix

Three arrays of `M` rows and `K₁`, `K₂`, `K₃` columns, joined along the columns into one array of
`K = K₁ + K₂ + K₃` columns and multiplied by a matrix `W` of `K` rows, give the sum of the three
arrays' own products with the three row bands of `W` (rows `0 …`, `K₁ …`, `K₁ + K₂ …`): entry
`(r, c)` of the joined product is `∑ k < K, [A B C](r, k) · W(k, c)`, and the range of `k` splits
into the three bands, on each of which the joined row reads one of the arrays. Only that addition
on the extended reals is associative is used, so no operand need be finite. -/

namespace Cert.ConcatDot

open Idealize.ShloMosaic Idealize.ShloMosaic.ValueIdx

variable {M K₁ K₂ K₃ K N o₂ o₃ : ℕ}

/-- The product of the joined array is the sum of the three products with the matrix's row bands. -/
theorem dotGeneral_concat3 {φ₁ φ₂ : FTy} (hK : K₁ + K₂ + K₃ = K) (ho₂ : K₁ = o₂) (ho₃ : K₁ + K₂ = o₃)
    (hc : Shape.Concatenates [(⟨2, ![M, K₁]⟩ : Shape), ⟨2, ![M, K₂]⟩, ⟨2, ![M, K₃]⟩] ⟨2, ![M, K]⟩ 1)
    (d : DotDims ⟨2, ![M, K]⟩ ⟨2, ![K, N]⟩ ⟨2, ![M, N]⟩) (hd : d = DotDims.plain M K N)
    (d₁ : DotDims ⟨2, ![M, K₁]⟩ ⟨2, ![K₁, N]⟩ ⟨2, ![M, N]⟩) (hd₁ : d₁ = DotDims.plain M K₁ N)
    (d₂ : DotDims ⟨2, ![M, K₂]⟩ ⟨2, ![K₂, N]⟩ ⟨2, ![M, N]⟩) (hd₂ : d₂ = DotDims.plain M K₂ N)
    (d₃ : DotDims ⟨2, ![M, K₃]⟩ ⟨2, ![K₃, N]⟩ ⟨2, ![M, N]⟩) (hd₃ : d₃ = DotDims.plain M K₃ N)
    (s₁ : (⟨2, ![K, N]⟩ : Shape).Slices ![0, 0] ⟨2, ![K₁, N]⟩)
    (s₂ : (⟨2, ![K, N]⟩ : Shape).Slices ![o₂, 0] ⟨2, ![K₂, N]⟩)
    (s₃ : (⟨2, ![K, N]⟩ : Shape).Slices ![o₃, 0] ⟨2, ![K₃, N]⟩)
    (p p₁ p₂ p₃ : Option ContractPrecision)
    (A : FVec Ideal ⟨2, ![M, K₁]⟩ φ₁) (B : FVec Ideal ⟨2, ![M, K₂]⟩ φ₁) (C : FVec Ideal ⟨2, ![M, K₃]⟩ φ₁)
    (W : FVec Ideal ⟨2, ![K, N]⟩ φ₂) :
    Host.dotGeneral d p (concatenate ⟨2, ![M, K]⟩ 1 [⟨⟨2, ![M, K₁]⟩, A⟩, ⟨⟨2, ![M, K₂]⟩, B⟩, ⟨⟨2, ![M, K₃]⟩, C⟩] hc) W
      = addf (addf (Host.dotGeneral d₁ p₁ A (extractStridedSlice ⟨2, ![K₁, N]⟩ ![0, 0] W s₁))
            (Host.dotGeneral d₂ p₂ B (extractStridedSlice ⟨2, ![K₂, N]⟩ ![o₂, 0] W s₂)))
          (Host.dotGeneral d₃ p₃ C (extractStridedSlice ⟨2, ![K₃, N]⟩ ![o₃, 0] W s₃)) := by
  subst hK ho₂ ho₃
  funext j
  obtain ⟨r, c, rfl⟩ : ∃ (r : Fin M) (c : Fin N), j = ix2 r c := ⟨j 0, j 1, eq_ix2 j⟩
  rw [addf_apply, addf_apply]
  refine (Cert.PlainDot.dotGeneral_apply d hd p .single _ W (ix2 r c)).trans ?_
  refine Eq.trans ?_ (congrArg₂ (· + ·) (congrArg₂ (· + ·)
    (Cert.PlainDot.dotGeneral_apply d₁ hd₁ p₁ .single A _ (ix2 r c)).symm
    (Cert.PlainDot.dotGeneral_apply d₂ hd₂ p₂ .single B _ (ix2 r c)).symm)
    (Cert.PlainDot.dotGeneral_apply d₃ hd₃ p₃ .single C _ (ix2 r c)).symm)
  rw [Fin.sum_univ_add, Fin.sum_univ_add]
  refine congrArg₂ (· + ·) (congrArg₂ (· + ·) ?_ ?_) ?_
  · -- the first band: columns `k < K₁` of the joined row are `A`'s, rows `k` of `W` the first band's
    refine Finset.sum_congr rfl fun k _ => ?_
    refine congrArg₂ (· * ·) ?_ ?_
    · refine concatenate_apply_piece 1 [⟨⟨2, ![M, K₁]⟩, A⟩, ⟨⟨2, ![M, K₂]⟩, B⟩, ⟨⟨2, ![M, K₃]⟩, C⟩] hc _ 0
        (by show 0 < 3; omega) ⟨2, ![M, K₁]⟩ A rfl rfl 0 rfl (ix2 r k) (fun b hb => ?_) ?_
      · match b with
        | ⟨0, _⟩ => rfl
        | ⟨1, _⟩ => exact absurd rfl hb
      · show 0 + k.val = k.val; omega
    · refine Eq.symm (extractStridedSlice_apply ![0, 0] W s₁ (ix2 k c) _ fun a => ?_)
      match a with
      | ⟨0, _⟩ => show k.val = 0 + k.val; omega
      | ⟨1, _⟩ => show c.val = 0 + c.val; omega
  · -- the second band: columns `K₁ + k`
    refine Finset.sum_congr rfl fun k _ => ?_
    refine congrArg₂ (· * ·) ?_ ?_
    · refine concatenate_apply_piece 1 [⟨⟨2, ![M, K₁]⟩, A⟩, ⟨⟨2, ![M, K₂]⟩, B⟩, ⟨⟨2, ![M, K₃]⟩, C⟩] hc _ 1
        (by show 1 < 3; omega) ⟨2, ![M, K₂]⟩ B rfl rfl K₁ (by simp [List.take, List.map, List.sum_cons]) (ix2 r k) (fun b hb => ?_) ?_
      · match b with
        | ⟨0, _⟩ => rfl
        | ⟨1, _⟩ => exact absurd rfl hb
      · show K₁ + k.val = K₁ + k.val; rfl
    · refine Eq.symm (extractStridedSlice_apply ![K₁, 0] W s₂ (ix2 k c) _ fun a => ?_)
      match a with
      | ⟨0, _⟩ => show K₁ + k.val = K₁ + k.val; rfl
      | ⟨1, _⟩ => show c.val = 0 + c.val; omega
  · -- the third band: columns `K₁ + K₂ + k`
    refine Finset.sum_congr rfl fun k _ => ?_
    refine congrArg₂ (· * ·) ?_ ?_
    · refine concatenate_apply_piece 1 [⟨⟨2, ![M, K₁]⟩, A⟩, ⟨⟨2, ![M, K₂]⟩, B⟩, ⟨⟨2, ![M, K₃]⟩, C⟩] hc _ 2
        (by show 2 < 3; omega) ⟨2, ![M, K₃]⟩ C rfl rfl (K₁ + K₂) (by simp [List.take, List.map, List.sum_cons]) (ix2 r k) (fun b hb => ?_) ?_
      · match b with
        | ⟨0, _⟩ => rfl
        | ⟨1, _⟩ => exact absurd rfl hb
      · show K₁ + K₂ + k.val = K₁ + K₂ + k.val; rfl
    · refine Eq.symm (extractStridedSlice_apply ![K₁ + K₂, 0] W s₃ (ix2 k c) _ fun a => ?_)
      match a with
      | ⟨0, _⟩ => show K₁ + K₂ + k.val = K₁ + K₂ + k.val; rfl
      | ⟨1, _⟩ => show c.val = 0 + c.val; omega

end Cert.ConcatDot

end
-- ==== Proof.KernelRows.lean ====
import proofs.«163005_j43508018708924_1_alg».proof.Proof.Gen.KernelIdeal.Frame
import proofs.«163005_j43508018708924_1_alg».proof.Proof.RefTerm
import proofs.«163005_j43508018708924_1_alg».proof.Proof.LibRowBlock
import proofs.«163005_j43508018708924_1_alg».proof.Proof.LibConcatDot
import Idealize.ShloMosaic.Lib.Pipeline.Value

/-!
# The kernel's body on a block of 1280 edges is that block of the reference's two layers

At grid point `t` the body sees rows `1280 t … 1280 t + 1279` of the three per-edge arrays
(`x_i`, `x_j`, the edge attributes) and the whole of the three bands of `W1`, of `W2` and of the
two bias rows. It computes, for those rows,
`max(x_i · W1a + (x_j − x_i) · W1b + attr · W1c + b1, 0) · W2 + b2`.
Every step works row by row, so the result is rows `1280 t …` of the same expression on the whole
arrays; and the sum of the three banded products is the product of the joined row
`[x_i, x_j − x_i, attr]` with the whole `W1` — the reference's first layer.
-/

noncomputable section

namespace Cert.KernelIdeal.KRows

open Cert.KernelIdeal Cert.KernelIdeal.Gen Idealize.ShloMosaic Idealize.ShloMosaic.TcCoe
open Idealize.ShloMosaic.Layout
open Cert.ReferenceIdeal.RefValue

/-- 250 blocks of 1280 rows make the 320000 edge rows, for rows of 256 and of 512 numbers. -/
theorem tiles256 : Tiles S1280x256 S320000x256 0 250 := by decide
theorem tiles512 : Tiles S1280x512 S320000x512 0 250 := by decide

/-- The first layer with the joined row split into its three bands of columns. -/
theorem layer1_split (xi xj ea : FVec Ideal S320000x256 .f32) (W1 : FVec Ideal S768x512 .f32) (b1 : FVec Ideal S512 .f32) :
    layer1 (F := Ideal) xi xj ea W1 b1
      = addf (addf (addf
            (Host.dotGeneral (DotDims.plain 320000 256 512) none xi (extractStridedSlice S256x512 ![0, 0] W1 slices_S768x512_S256x512_0_0))
            (Host.dotGeneral (DotDims.plain 320000 256 512) none (subf xj xi) (extractStridedSlice S256x512 ![256, 0] W1 slices_S768x512_S256x512_256_0)))
            (Host.dotGeneral (DotDims.plain 320000 256 512) none ea (extractStridedSlice S256x512 ![512, 0] W1 slices_S768x512_S256x512_512_0)))
          (underEdges (F := Ideal) b1) := by
  unfold layer1
  refine congrArg (fun z : FVec Ideal S320000x512 .f32 => addf z (underEdges (F := Ideal) b1)) ?_
  exact Cert.ConcatDot.dotGeneral_concat3 (M := 320000) (K₁ := 256) (K₂ := 256) (K₃ := 256) (K := 768) (N := 512) (o₂ := 256) (o₃ := 512)
    rfl rfl rfl _ _ rfl (DotDims.plain 320000 256 512) rfl (DotDims.plain 320000 256 512) rfl (DotDims.plain 320000 256 512) rfl
    slices_S768x512_S256x512_0_0 slices_S768x512_S256x512_256_0 slices_S768x512_S256x512_512_0 none none none none xi (subf xj xi) ea W1

/-- **The body on row block `t`.** With its three per-edge inputs the row blocks `t` of whole arrays `xi`, `xj`, `ea`, its
    three weight inputs the bands of `W1`, and its bias inputs the rows made of `b1` and `b2`, the body's stored value is
    row block `t` of the reference's two layers on the whole arrays. -/
theorem pay_rows (t : Fin 250) (xi xj ea : FVec Ideal S320000x256 .f32) (W1 : FVec Ideal S768x512 .f32)
    (b1 b2 : FVec Ideal S512 .f32) (W2 : FVec Ideal S512x512 .f32) :
    k0_pay1 (F := Ideal)
        (k0_pay2 (block S1280x256 S320000x256 0 250 t xi tiles256) (block S1280x256 S320000x256 0 250 t xj tiles256)
          (block S1280x256 S320000x256 0 250 t ea tiles256)
          (extractStridedSlice S256x512 ![0, 0] W1 slices_S768x512_S256x512_0_0)
          (extractStridedSlice S256x512 ![256, 0] W1 slices_S768x512_S256x512_256_0)
          (extractStridedSlice S256x512 ![512, 0] W1 slices_S768x512_S256x512_512_0)
          (shapeCast S1x512 b1 shapeCasts_S512_S1x512) W2)
        (k0_pay3 (shapeCast S1x512 b2 shapeCasts_S512_S1x512))
      = block S1280x512 S320000x512 0 250 t (layer2 (F := Ideal) (layer1 (F := Ideal) xi xj ea W1 b1) W2 b2) tiles512 := by
  rw [layer1_split]
  unfold k0_pay1 k0_pay2 k0_pay3 layer2
  simp only [shapeCast_self]
  -- the three banded products of the first layer, on the block and on the whole array
  have hA := Cert.RowBlock.dot_rows_trunc (R := 1280) (M := 320000) (T := 250) (K := 256) (N := 512) (φ₁ := .f32) (φ₂ := .f32) (ψ₁ := .bf16) (ψ₂ := .bf16)
    bitsLt_bf16_f32 bitsLt_bf16_f32 dot_S1280x256_S256x512_S1280x512_1_0_0_1_n_n rfl (DotDims.plain 320000 256 512) rfl tiles256 tiles512 none none t
    xi (extractStridedSlice S256x512 ![0, 0] W1 slices_S768x512_S256x512_0_0)
  have hB := Cert.RowBlock.dot_rows_trunc (R := 1280) (M := 320000) (T := 250) (K := 256) (N := 512) (φ₁ := .f32) (φ₂ := .f32) (ψ₁ := .bf16) (ψ₂ := .bf16)
    bitsLt_bf16_f32 bitsLt_bf16_f32 dot_S1280x256_S256x512_S1280x512_1_0_0_1_n_n rfl (DotDims.plain 320000 256 512) rfl tiles256 tiles512 none none t
    (subf xj xi) (extractStridedSlice S256x512 ![256, 0] W1 slices_S768x512_S256x512_256_0)
  have hC := Cert.RowBlock.dot_rows_trunc (R := 1280) (M := 320000) (T := 250) (K := 256) (N := 512) (φ₁ := .f32) (φ₂ := .f32) (ψ₁ := .bf16) (ψ₂ := .bf16)
    bitsLt_bf16_f32 bitsLt_bf16_f32 dot_S1280x256_S256x512_S1280x512_1_0_0_1_n_n rfl (DotDims.plain 320000 256 512) rfl tiles256 tiles512 none none t
    ea (extractStridedSlice S256x512 ![512, 0] W1 slices_S768x512_S256x512_512_0)
  -- the two bias rows under the block's rows and under all rows
  have hb1 := Cert.RowBlock.bias_rows (R := 1280) (M := 320000) (T := 250) (N := 512) tiles512 t shapeCasts_S512_S1x512 broadcasts_S1x512_S1280x512
    Cert.ReferenceIdeal.Gen.bcast_S512_S1x512_1 Cert.ReferenceIdeal.Gen.bcast_S1x512_S320000x512_0_1 b1
  have hb2 := Cert.RowBlock.bias_rows (R := 1280) (M := 320000) (T := 250) (N := 512) tiles512 t shapeCasts_S512_S1x512 broadcasts_S1x512_S1280x512
    Cert.ReferenceIdeal.Gen.bcast_S512_S1x512_1 Cert.ReferenceIdeal.Gen.bcast_S1x512_S320000x512_0_1 b2
  rw [Cert.RowBlock.subf_rows tiles256 t xj xi] at *
  rw [hA, hB, hC, hb1, hb2]
  -- the zero the first layer is cut off at, on the block and on the whole array
  have hs : broadcast S1280x512 (FloatOps.ofBits (F := Ideal) .f32 0x00000000#32)
      = block S1280x512 S320000x512 0 250 t
          (broadcastInDim Cert.ReferenceIdeal.S320000x512 ![] Cert.ReferenceIdeal.Gen.bcast_S_S320000x512
            (constant (F := Ideal) Cert.ReferenceIdeal.S_ .f32 0x00000000#32)) tiles512 :=
    Cert.RowBlock.splat_rows (R := 1280) (M := 320000) (T := 250) (N := 512) tiles512 t Cert.ReferenceIdeal.Gen.bcast_S_S320000x512 0x00000000#32
  rw [hs, Cert.RowBlock.addf_rows, Cert.RowBlock.addf_rows, Cert.RowBlock.addf_rows, Cert.RowBlock.maximumf_rows]
  -- the second layer's product
  rw [Cert.RowBlock.dot_rows_trunc (R := 1280) (M := 320000) (T := 250) (K := 512) (N := 512) (φ₁ := .f32) (φ₂ := .f32) (ψ₁ := .bf16) (ψ₂ := .bf16)
    bitsLt_bf16_f32 bitsLt_bf16_f32 dot_S1280x512_S512x512_S1280x512_1_0_0_1_n_n rfl
    Cert.ReferenceIdeal.dot_S320000x512_S512x512_S320000x512_1_0_0_1_n_n rfl tiles512 tiles512 none none t]
  rw [Cert.RowBlock.addf_rows]
  rfl

end Cert.KernelIdeal.KRows

end
-- ==== Proof.KernelArr.lean ====
import proofs.«163005_j43508018708924_1_alg».proof.Proof.KernelRows

/-!
# From the blocks the kernel writes to the whole output array

Grid point `t` (of 250) writes rows `1280 t … 1280 t + 1279` of the output array, all 512 columns. Its three
per-edge inputs are the same rows of their arrays, and its six other inputs are whole arrays, the same at every
point. So what point `t` writes is rows `1280 t …` of ONE function of the arrays as the region finds them — the
reference's two layers — and since every row `r` lies in the block of point `r / 1280`, the array ends holding
that function.
-/

noncomputable section

namespace Cert.KernelIdeal.KArr

open Cert.KernelIdeal Cert.KernelIdeal.Gen Idealize.ShloMosaic Idealize.ShloMosaic.TcCoe Idealize.SL.Sem
open Idealize.ShloMosaic.Layout
open Idealize.ShloMosaic.Pipeline (Dat)
open Cert.ReferenceIdeal.RefValue Cert.KernelIdeal.KRows

variable (m : (ℓ : Loc nD τ sig) → Buf (Elt Ideal) ℓ)

theorem hz : (![0, 0] : Fin 2 → Nat) = fun _ => 0 := funext fun a => by fin_cases a <;> rfl

/-- The printed index maps over the grid: the three per-edge inputs and the output take block row `t`, block column 0;
    the six shared inputs take block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- A grid point as a block number. -/
def blockOf (t : Fin cfg0.N) : Fin 250 := Fin.cast N_0 t

theorem blockOf_val (t : Fin cfg0.N) : (blockOf t).val = t.val := rfl

/-- `pay_rows` with the body's nine inputs as variables, each given by an equation. -/
theorem pay_rows_of (t : Fin 250) (xi xj ea : FVec Ideal S320000x256 .f32) (W1 : FVec Ideal S768x512 .f32)
    (b1 b2 : FVec Ideal S512 .f32) (W2 : FVec Ideal S512x512 .f32)
    (x0 x1 x2 : Vec Ideal S1280x256 .f32) (x3 x4 x5 : Vec Ideal S256x512 .f32) (x6 : Vec Ideal S1x512 .f32)
    (x7 : Vec Ideal S512x512 .f32) (x8 : Vec Ideal S1x512 .f32)
    (h0 : x0 = block S1280x256 S320000x256 0 250 t xi tiles256) (h1 : x1 = block S1280x256 S320000x256 0 250 t xj tiles256)
    (h2 : x2 = block S1280x256 S320000x256 0 250 t ea tiles256)
    (h3 : x3 = extractStridedSlice S256x512 ![0, 0] W1 slices_S768x512_S256x512_0_0)
    (h4 : x4 = extractStridedSlice S256x512 ![256, 0] W1 slices_S768x512_S256x512_256_0)
    (h5 : x5 = extractStridedSlice S256x512 ![512, 0] W1 slices_S768x512_S256x512_512_0)
    (h6 : x6 = shapeCast S1x512 b1 shapeCasts_S512_S1x512) (h7 : x7 = W2)
    (h8 : x8 = shapeCast S1x512 b2 shapeCasts_S512_S1x512) :
    k0_pay1 (F := Ideal) (k0_pay2 x0 x1 x2 x3 x4 x5 x6 x7) (k0_pay3 x8)
      = block S1280x512 S320000x512 0 250 t (layer2 (F := Ideal) (layer1 (F := Ideal) xi xj ea W1 b1) W2 b2) tiles512 := by
  subst h0 h1 h2 h3 h4 h5 h6 h8
  subst x7
  exact pay_rows t xi xj ea W1 b1 b2 W2

/-! ## Each window's block at a point, read off an arbitrary array -/

/-- Rows `1280 t …` of an array of 320000 rows of 256: the block a per-edge input window reads at point `t`. -/
theorem read_rows0 (t : Fin cfg0.N) (A : S320000x256.Idx → Ideal .f32) :
    ((cfg0.win 0).blk t).view.read (Elt Ideal) A = block S1280x256 S320000x256 0 250 (blockOf t) A tiles256 := by
  obtain ⟨e00, e01, -⟩ := idx_facts t
  funext j
  show A (((cfg0.win 0).blk t).view.emb j) = A (tiles256.idx (blockOf t) j)
  refine congrArg A (funext fun a => Fin.ext ?_)
  match a with
  | ⟨0, _⟩ => show win0_0.index t (0 : Fin 2) * 1280 + 1 * (j 0).val = (blockOf t).val * 1280 + (j 0).val; rw [blockOf_val]; omega
  | ⟨1, _⟩ => show win0_0.index t (1 : Fin 2) * 256 + 1 * (j 1).val = (j 1).val; omega
theorem read_rows1 (t : Fin cfg0.N) (A : S320000x256.Idx → Ideal .f32) :
    ((cfg0.win 1).blk t).view.read (Elt Ideal) A = block S1280x256 S320000x256 0 250 (blockOf t) A tiles256 := by
  obtain ⟨-, -, e10, e11, -⟩ := idx_facts t
  funext j
  show A (((cfg0.win 1).blk t).view.emb j) = A (tiles256.idx (blockOf t) j)
  refine congrArg A (funext fun a => Fin.ext ?_)
  match a with
  | ⟨0, _⟩ => show win0_1.index t (0 : Fin 2) * 1280 + 1 * (j 0).val = (blockOf t).val * 1280 + (j 0).val; rw [blockOf_val]; omega
  | ⟨1, _⟩ => show win0_1.index t (1 : Fin 2) * 256 + 1 * (j 1).val = (j 1).val; omega
theorem read_rows2 (t : Fin cfg0.N) (A : S320000x256.Idx → Ideal .f32) :
    ((cfg0.win 2).blk t).view.read (Elt Ideal) A = block S1280x256 S320000x256 0 250 (blockOf t) A tiles256 := by
  obtain ⟨-, -, -, -, e20, e21, -⟩ := idx_facts t
  funext j
  show A (((cfg0.win 2).blk t).view.emb j) = A (tiles256.idx (blockOf t) j)
  refine congrArg A (funext fun a => Fin.ext ?_)
  match a with
  | ⟨0, _⟩ => show win0_2.index t (0 : Fin 2) * 1280 + 1 * (j 0).val = (blockOf t).val * 1280 + (j 0).val; rw [blockOf_val]; omega
  | ⟨1, _⟩ => show win0_2.index t (1 : Fin 2) * 256 + 1 * (j 1).val = (j 1).val; omega

/-- A shared input's window takes its whole array at every point. -/
theorem read_whole3 (t : Fin cfg0.N) (A : S256x512.Idx → Ideal .f32) : ((cfg0.win 3).blk t).view.read (Elt Ideal) A = A := by
  obtain ⟨-, -, -, -, -, -, e30, e31, -⟩ := idx_facts t
  funext j
  show A (((cfg0.win 3).blk t).view.emb j) = A j
  refine congrArg A (funext fun a => Fin.ext ?_)
  match a with
  | ⟨0, _⟩ => show win0_3.index t (0 : Fin 2) * 256 + 1 * (j 0).val = (j 0).val; omega
  | ⟨1, _⟩ => show win0_3.index t (1 : Fin 2) * 512 + 1 * (j 1).val = (j 1).val; omega
theorem read_whole4 (t : Fin cfg0.N) (A : S256x512.Idx → Ideal .f32) : ((cfg0.win 4).blk t).view.read (Elt Ideal) A = A := by
  obtain ⟨-, -, -, -, -, -, -, -, e40, e41, -⟩ := idx_facts t
  funext j
  show A (((cfg0.win 4).blk t).view.emb j) = A j
  refine congrArg A (funext fun a => Fin.ext ?_)
  match a with
  | ⟨0, _⟩ => show win0_4.index t (0 : Fin 2) * 256 + 1 * (j 0).val = (j 0).val; omega
  | ⟨1, _⟩ => show win0_4.index t (1 : Fin 2) * 512 + 1 * (j 1).val = (j 1).val; omega
theorem read_whole5 (t : Fin cfg0.N) (A : S256x512.Idx → Ideal .f32) : ((cfg0.win 5).blk t).view.read (Elt Ideal) A = A := by
  obtain ⟨-, -, -, -, -, -, -, -, -, -, e50, e51, -⟩ := idx_facts t
  funext j
  show A (((cfg0.win 5).blk t).view.emb j) = A j
  refine congrArg A (funext fun a => Fin.ext ?_)
  match a with
  | ⟨0, _⟩ => show win0_5.index t (0 : Fin 2) * 256 + 1 * (j 0).val = (j 0).val; omega
  | ⟨1, _⟩ => show win0_5.index t (1 : Fin 2) * 512 + 1 * (j 1).val = (j 1).val; omega
theorem read_whole6 (t : Fin cfg0.N) (A : S1x512.Idx → Ideal .f32) : ((cfg0.win 6).blk t).view.read (Elt Ideal) A = A := by
  obtain ⟨-, -, -, -, -, -, -, -, -, -, -, -, e60, e61, -⟩ := idx_facts t
  funext j
  show A (((cfg0.win 6).blk t).view.emb j) = A j
  refine congrArg A (funext fun a => Fin.ext ?_)
  match a with
  | ⟨0, _⟩ => show win0_6.index t (0 : Fin 2) * 1 + 1 * (j 0).val = (j 0).val; omega
  | ⟨1, _⟩ => show win0_6.index t (1 : Fin 2) * 512 + 1 * (j 1).val = (j 1).val; omega
theorem read_whole7 (t : Fin cfg0.N) (A : S512x512.Idx → Ideal .f32) : ((cfg0.win 7).blk t).view.read (Elt Ideal) A = A := by
  obtain ⟨-, -, -, -, -, -, -, -, -, -, -, -, -, -, e70, e71, -⟩ := idx_facts t
  funext j
  show A (((cfg0.win 7).blk t).view.emb j) = A j
  refine congrArg A (funext fun a => Fin.ext ?_)
  match a with
  | ⟨0, _⟩ => show win0_7.index t (0 : Fin 2) * 512 + 1 * (j 0).val = (j 0).val; omega
  | ⟨1, _⟩ => show win0_7.index t (1 : Fin 2) * 512 + 1 * (j 1).val = (j 1).val; omega
theorem read_whole8 (t : Fin cfg0.N) (A : S1x512.Idx → Ideal .f32) : ((cfg0.win 8).blk t).view.read (Elt Ideal) A = A := by
  obtain ⟨-, -, -, -, -, -, -, -, -, -, -, -, -, -, -, -, e80, e81, -⟩ := idx_facts t
  funext j
  show A (((cfg0.win 8).blk t).view.emb j) = A j
  refine congrArg A (funext fun a => Fin.ext ?_)
  match a with
  | ⟨0, _⟩ => show win0_8.index t (0 : Fin 2) * 1 + 1 * (j 0).val = (j 0).val; omega
  | ⟨1, _⟩ => show win0_8.index t (1 : Fin 2) * 512 + 1 * (j 1).val = (j 1).val; omega

/-- Rows `1280 t …` of an array of 320000 rows of 512, read through the output window's block at point `t`. -/
theorem read_rows9 (t : Fin cfg0.N) (A : S320000x512.Idx → Ideal .f32) :
    block S1280x512 S320000x512 0 250 (blockOf t) A tiles512 = ((cfg0.win 9).blk t).view.read (Elt Ideal) A := by
  obtain ⟨-, -, -, -, -, -, -, -, -, -, -, -, -, -, -, -, -, -, e90, e91⟩ := idx_facts t
  funext j
  show A (tiles512.idx (blockOf t) j) = A (((cfg0.win 9).blk t).view.emb j)
  refine congrArg A (funext fun a => Fin.ext ?_)
  match a with
  | ⟨0, _⟩ => show (blockOf t).val * 1280 + (j 0).val = win0_9.index t (0 : Fin 2) * 1280 + 1 * (j 0).val; rw [blockOf_val]; omega
  | ⟨1, _⟩ => show (j 1).val = win0_9.index t (1 : Fin 2) * 512 + 1 * (j 1).val; omega

/-- **What point `t` writes back** is rows `1280 t …` of the reference's two layers of the arrays as the region finds them:
    `W1`'s three bands are the three sliced arrays (`h3`, `h4`, `h5`), the two bias rows the reshaped vectors (`h6`, `h8`). -/
theorem flushed_eq (c : Dev nD) (W1 : FVec Ideal S768x512 .f32) (b1 b2 : FVec Ideal S512 .f32)
    (h3 : V m c main_v18 = extractStridedSlice S256x512 ![0, 0] W1 slices_S768x512_S256x512_0_0)
    (h4 : V m c main_v19 = extractStridedSlice S256x512 ![256, 0] W1 slices_S768x512_S256x512_256_0)
    (h5 : V m c main_v20 = extractStridedSlice S256x512 ![512, 0] W1 slices_S768x512_S256x512_512_0)
    (h6 : V m c main_v21 = shapeCast S1x512 b1 shapeCasts_S512_S1x512)
    (h8 : V m c main_v22 = shapeCast S1x512 b2 shapeCasts_S512_S1x512)
    (t : Fin cfg0.N) :
    (dats m 0 c).flushed 9 t = ((cfg0.win 9).blk t).view.read (Elt Ideal)
      (layer2 (F := Ideal) (layer1 (F := Ideal) (V m c main_v10) (V m c main_v17) (V m c main_arg2) W1 b1) (V m c main_arg5) b2) := by
  show (cfg0.win 9).cut (grid0.coords t) ((dats m 0 c).after 9 t) = _
  rw [after0_9]
  unfold out0_9
  rw [View.canon_unit_zero hz]
  simp only [View.ld_unit_zero (S := S1280x256) hz, View.ld_unit_zero (S := S256x512) hz, View.ld_unit_zero (S := S1x512) hz,
    View.ld_unit_zero (S := S512x512) hz]
  refine Eq.trans ?_ (read_rows9 t _)
  exact pay_rows_of (blockOf t) (V m c main_v10) (V m c main_v17) (V m c main_arg2) W1 b1 b2 (V m c main_arg5)
    (iblk m c 0 t) (iblk m c 1 t) (iblk m c 2 t) (iblk m c 3 t) (iblk m c 4 t) (iblk m c 5 t) (iblk m c 6 t) (iblk m c 7 t) (iblk m c 8 t)
    (read_rows0 t _) (read_rows1 t _) (read_rows2 t _) ((read_whole3 t _).trans h3) ((read_whole4 t _).trans h4)
    ((read_whole5 t _).trans h5) ((read_whole6 t _).trans h6) (read_whole7 t _) ((read_whole8 t _).trans h8)

/-- An index of the output array is in point `t`'s block iff each coordinate is in the block's range on its axis. -/
theorem mem_blk (t : Fin cfg0.N) (i : S320000x512.Idx) :
    i ∈ ((cfg0.win 9).blk t).view.set ↔ ∀ a : Fin 2, win0_9.index t a * S1280x512.size a ≤ (i a).val
      ∧ (i a).val < win0_9.index t a * S1280x512.size a + S1280x512.size a := by
  show i ∈ ((View.whole main_v23).slice (win0_9.rect t)).set ↔ _
  rw [View.set_slice_whole, Rect.mem_set_unit]
  exact Iff.rfl

/-- **The blocks cover the array**: row `r` is in the block of point `r / 1280`, and every point writes its block back. -/
theorem cover (i : S320000x512.Idx) :
    ∃ t : Fin cfg0.N, (cfg0.win 9).flush t = true ∧ i ∈ ((cfg0.win 9).blk t).view.set := by
  have hi0 : (i 0).val < 320000 := (i 0).isLt
  have hi1 : (i 1).val < 512 := (i 1).isLt
  have hlt : (i 0).val / 1280 < 250 := by omega
  let t : Fin cfg0.N := Fin.cast N_0.symm ⟨(i 0).val / 1280, hlt⟩
  have ht : t.val = (i 0).val / 1280 := rfl
  obtain ⟨_, _, _, _, _, _, _, _, _, _, _, _, _, _, _, _, _, _, e90, e91⟩ := idx_facts t
  refine ⟨t, flush0_9 t, ?_⟩
  rw [mem_blk]
  intro a
  match a with
  | ⟨0, _⟩ =>
    show win0_9.index t (0 : Fin 2) * 1280 ≤ (i 0).val ∧ (i 0).val < win0_9.index t (0 : Fin 2) * 1280 + 1280
    omega
  | ⟨1, _⟩ =>
    show win0_9.index t (1 : Fin 2) * 512 ≤ (i 1).val ∧ (i 1).val < win0_9.index t (1 : Fin 2) * 512 + 512
    omega

/-- **The output array after the run**: the reference's two layers of the arrays as the region finds them. -/
theorem final9 (c : Dev nD) (W1 : FVec Ideal S768x512 .f32) (b1 b2 : FVec Ideal S512 .f32)
    (h3 : V m c main_v18 = extractStridedSlice S256x512 ![0, 0] W1 slices_S768x512_S256x512_0_0)
    (h4 : V m c main_v19 = extractStridedSlice S256x512 ![256, 0] W1 slices_S768x512_S256x512_256_0)
    (h5 : V m c main_v20 = extractStridedSlice S256x512 ![512, 0] W1 slices_S768x512_S256x512_512_0)
    (h6 : V m c main_v21 = shapeCast S1x512 b1 shapeCasts_S512_S1x512)
    (h8 : V m c main_v22 = shapeCast S1x512 b2 shapeCasts_S512_S1x512) :
    (dats m 0 c).arrAt 9 cfg0.N
      = layer2 (F := Ideal) (layer1 (F := Ideal) (V m c main_v10) (V m c main_v17) (V m c main_arg2) W1 b1) (V m c main_arg5) b2 :=
  (dats m 0 c).arrAt_eq_of_cover 9 _ (fun t _ => flushed_eq m c W1 b1 b2 h3 h4 h5 h6 h8 t) cover

end Cert.KernelIdeal.KArr

end
-- ==== Proof.KernelHost.lean ====
import proofs.«163005_j43508018708924_1_alg».proof.Proof.Gen.KernelIdeal.Frame
import proofs.«163005_j43508018708924_1_alg».proof.Proof.RefTerm
import Idealize.ShloMosaic.Lib.StableHlo.Run
import Idealize.ShloMosaic.PureOps.Ideal

/-!
# The kernel program's host lines, read as functions of its argument arrays

Before its one kernel region the program slices the edge list into its two rows, wraps the node
numbers, gathers the two row tables `x_i` (targets) and `x_j` (sources), cuts `W1` into its three
bands of 256 rows and lays the two bias vectors out as rows. After the region it adds the region's
edge rows up per target node, normalises and cuts off at zero. These are the same operations the
reference applies, so each array is stated with the reference's named functions (`RefValue`).
-/

noncomputable section

namespace Cert.KernelIdeal.KHost

open Cert.KernelIdeal Cert.KernelIdeal.Gen Idealize.ShloMosaic Idealize.ShloMosaic.TcCoe Idealize.SL.Sem
open Cert.ReferenceIdeal.RefValue
open Idealize.ShloMosaic.StableHlo

variable (m : (ℓ : Loc nD τ sig) → Buf (Elt Ideal) ℓ)

-- The gathers, the scatter-add, the column sums, the quotient and the inverse square root are compared as
-- whole applications, never opened: both sides apply the same function to arguments that are then compared.
attribute [local irreducible] Host.gather Host.scatterAdd Host.reduceAdd Host.rsqrt Host.divf

/-- The target rows `x_i` as the region finds them. -/
theorem entry_xi (c : Dev nD) :
    V m c main_v10 = rowsOf (m ((c : Thread nD τ).loc main_arg0)) (dstOf (m ((c : Thread nD τ).loc main_arg1))) := by
  show StableHlo.after hostOps0 (fun b => m (c, b)) (Proc.devRef .tc main_v10) = _
  after_results
  rfl

/-- The source rows `x_j` as the region finds them. -/
theorem entry_xj (c : Dev nD) :
    V m c main_v17 = rowsOf (m ((c : Thread nD τ).loc main_arg0)) (srcOf (m ((c : Thread nD τ).loc main_arg1))) := by
  show StableHlo.after hostOps0 (fun b => m (c, b)) (Proc.devRef .tc main_v17) = _
  after_results_simp
  rfl

/-- The three bands of `W1`: rows 0 …, 256 …, 512 …. -/
theorem entry_w1a (c : Dev nD) :
    V m c main_v18 = extractStridedSlice S256x512 ![0, 0] (m ((c : Thread nD τ).loc main_arg3)) slices_S768x512_S256x512_0_0 := by
  show StableHlo.after hostOps0 (fun b => m (c, b)) (Proc.devRef .tc main_v18) = _
  after_results
theorem entry_w1b (c : Dev nD) :
    V m c main_v19 = extractStridedSlice S256x512 ![256, 0] (m ((c : Thread nD τ).loc main_arg3)) slices_S768x512_S256x512_256_0 := by
  show StableHlo.after hostOps0 (fun b => m (c, b)) (Proc.devRef .tc main_v19) = _
  after_results
theorem entry_w1c (c : Dev nD) :
    V m c main_v20 = extractStridedSlice S256x512 ![512, 0] (m ((c : Thread nD τ).loc main_arg3)) slices_S768x512_S256x512_512_0 := by
  show StableHlo.after hostOps0 (fun b => m (c, b)) (Proc.devRef .tc main_v20) = _
  after_results

/-- The two bias vectors laid out as one row each. -/
theorem entry_b1 (c : Dev nD) :
    V m c main_v21 = shapeCast S1x512 (m ((c : Thread nD τ).loc main_arg4)) shapeCasts_S512_S1x512 := by
  show StableHlo.after hostOps0 (fun b => m (c, b)) (Proc.devRef .tc main_v21) = _
  after_results
  rfl
theorem entry_b2 (c : Dev nD) :
    V m c main_v22 = shapeCast S1x512 (m ((c : Thread nD τ).loc main_arg6)) shapeCasts_S512_S1x512 := by
  show StableHlo.after hostOps0 (fun b => m (c, b)) (Proc.devRef .tc main_v22) = _
  after_results
  rfl

/-- The target nodes `dst`: row 1 of the edge list as one vector, which the lines after the region read again. -/
theorem entry_dst (c : Dev nD) :
    V m c main_v3 = dstOf (m ((c : Thread nD τ).loc main_arg1)) := by
  show StableHlo.after hostOps0 (fun b => m (c, b)) (Proc.devRef .tc main_v3) = _
  after_results
  rfl

/-- The lines after the region, read at the result buffer from ANY contents `W` of the buffers: they compute
    `normRelu (perNode dst h) gamma beta` of the four buffers they read and never wrote (`dst`, the region's output `h`,
    `gamma`, `beta`). The column mean is computed twice by the program (once for the centring, once inside the variance),
    as `normRelu` and `colVar` state it. -/
theorem tail_read (W : Valuation τ sig (Elt Ideal)) :
    StableHlo.after (List.flatten [hostOps1, hostOps1_1, hostOps1_2, hostOps1_3]) W (Proc.devRef .tc main_v46)
      = normRelu (perNode (W (Proc.devRef .tc main_v3)) (W (Proc.devRef .tc main_v23)))
          (W (Proc.devRef .tc main_arg7)) (W (Proc.devRef .tc main_arg8)) := by
  simp only [hostOps1, hostOps1_1, hostOps1_2, hostOps1_3, List.flatten_cons, List.flatten_nil, List.append_nil,
    List.cons_append, List.nil_append]
  after_results_simp
  rfl

/-- The program's result after the lines that follow the region: the region's output array `h` (one row of
    512 per edge) added up per target node, normalised, scaled, shifted and cut off at zero. -/
theorem tail_out (c : Dev nD) :
    Pipeline.afterTail₀ cfgs (dats m) 0 (V0 m) [hostOps1, hostOps1_1, hostOps1_2, hostOps1_3] c main_v46
      = normRelu (perNode (dstOf (m ((c : Thread nD τ).loc main_arg1))) ((dats m 0 c).arrAt 9 cfg0.N))
          (m ((c : Thread nD τ).loc main_arg7)) (m ((c : Thread nD τ).loc main_arg8)) := by
  unfold Pipeline.afterTail₀
  refine (tail_read _).trans ?_
  -- the four buffers at the region's exit: the output array is the pipeline's window 9, the other three are no
  -- window's array and stand as the region found them
  have hdst := (Pipeline.withArrays_of_ne spec0 c (V0 m c) (fun w => (dats m 0 c).arrAt w cfg0.N) main_v3 (by decide)).trans
    (entry_dst m c)
  have hh := Pipeline.withArrays_arr spec0 launch0.win.arr_inj c (V0 m c) (fun w => (dats m 0 c).arrAt w cfg0.N) 9
  have hg := (Pipeline.withArrays_of_ne spec0 c (V0 m c) (fun w => (dats m 0 c).arrAt w cfg0.N) main_arg7 (by decide)).trans
    (V_main_arg7 m c)
  have hb := (Pipeline.withArrays_of_ne spec0 c (V0 m c) (fun w => (dats m 0 c).arrAt w cfg0.N) main_arg8 (by decide)).trans
    (V_main_arg8 m c)
  exact congr (congr (congrArg normRelu (congr (congrArg perNode hdst) hh)) hg) hb

end Cert.KernelIdeal.KHost

end
-- ==== Proof.KernelValue.lean ====
import proofs.«163005_j43508018708924_1_alg».proof.Proof.KernelArr
import proofs.«163005_j43508018708924_1_alg».proof.Proof.KernelHost

/-!
# The kernel program's result is the reference's function of the argument arrays

The program's run ends with its result buffer at what the lines after the region make of the region's
output array. That array is the reference's two layers of the arrays the region finds; those arrays are the
reference's own gathers, bands and bias rows of the arguments; and the lines after the region are the reference's
per-node sum and normalisation. Put together: the result is `RefValue.out` of the nine arguments.
-/

noncomputable section

namespace Cert.KernelIdeal.KValue

open Cert.KernelIdeal Cert.KernelIdeal.Gen Idealize.ShloMosaic Idealize.ShloMosaic.TcCoe Idealize.SL.Sem
open Cert.ReferenceIdeal.RefValue

variable (m : (ℓ : Loc nD τ sig) → Buf (Elt Ideal) ℓ) (ρ : Dev nD → PrngReg)

/-- What the lines after the region leave in the result buffer, as the reference's function of the arguments. -/
theorem result_eq (c : Dev nD) :
    Pipeline.afterTail₀ cfgs (dats m) 0 (V0 m) [hostOps1, hostOps1_1, hostOps1_2, hostOps1_3] c main_v46
      = out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := by
  rw [Cert.KernelIdeal.KHost.tail_out m c]
  rw [Cert.KernelIdeal.KArr.final9 m c (m ((c.tc : Thread nD τ).loc main_arg3)) (m ((c.tc : Thread nD τ).loc main_arg4)) (m ((c.tc : Thread nD τ).loc main_arg6))
    (Cert.KernelIdeal.KHost.entry_w1a m c) (Cert.KernelIdeal.KHost.entry_w1b m c) (Cert.KernelIdeal.KHost.entry_w1c m c)
    (Cert.KernelIdeal.KHost.entry_b1 m c) (Cert.KernelIdeal.KHost.entry_b2 m c)]
  rw [Cert.KernelIdeal.KHost.entry_xi m c, Cert.KernelIdeal.KHost.entry_xj m c, V_main_arg2 m c, V_main_arg5 m c]
  rfl

/-- Every weakly fair execution of the program ends with the result at the reference's function of the arguments and the
    arguments as they were. -/
theorem run : θ_run (defs (F := Ideal)) (onTc (τ := τ) (main (F := Ideal))) ⟨m, fun _ => 0, ρ⟩ fun r => ∀ c : Dev nD,
      r.2.mem ((c.tc : Thread nD τ).loc main_v46)
          = out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v46 (Pipeline.mem_restRefs_of main_v46 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 7).trans (((dats m 0 c).arrAt_in 7 rfl _).trans ((A_eq m c 7).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KValue

end
-- ==== Proof.LibNary3Apply.lean ====
import Idealize.ShloMosaic.Lib.StableHlo.Run

noncomputable section

/-! # A host operation of three operands, its result with the operands as plain arguments

An operation over a literal family of three references leaves, at its result buffer, its function of the three
operands' contents. Here that value is written `apply3 f X Y Z` with the three contents as ordinary arguments, each read at
its own reference, so that a one-pass reader of a line of operations rewrites the three reads before the function is
applied to them (a function that puts its operands in a place whose type a later argument depends on, such as the piece list
of a concatenation, otherwise hides them from the reader). -/

namespace Cert.Nary3

open Idealize.ShloMosaic Idealize.ShloMosaic.StableHlo

variable {τ : Topo} {sig : RefSig} {Val : EltTy → Type} {x a b y : Ref sig .tc}

/-- A function of a family of three contents, applied to the three contents one by one. -/
def apply3 (f : ((k : Fin 3) → ((![x, a, b] : Fin 3 → Ref sig .tc) k).ty.Contents Val) → y.ty.Contents Val)
    (X : x.ty.Contents Val) (Y : a.ty.Contents Val) (Z : b.ty.Contents Val) : y.ty.Contents Val :=
  f (Fin.cons X (Fin.cons Y (Fin.cons Z (fun i => i.elim0))))

/-- The result of an operation over three literal references, the operands as plain arguments. -/
theorem nary3_result_apply
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = apply3 f (F (Proc.devRef .tc x)) (F (Proc.devRef .tc a)) (F (Proc.devRef .tc b)) := by
  unfold apply3
  rw [nary_result]; congr 1; funext k; fin_cases k <;> rfl

/-- The same, with the result reference un-indexed, for a one-pass reader. -/
theorem nary3_result_apply'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 f (F (Proc.devRef .tc x)) (F (Proc.devRef .tc a)) (F (Proc.devRef .tc b)) :=
  nary3_result_apply f hxs hy F

end Cert.Nary3

end
-- ==== Proof.RefRun.lean ====
import proofs.«163005_j43508018708924_1_alg».proof.Proof.RefTerm
import proofs.«163005_j43508018708924_1_alg».proof.Proof.LibNary3Apply
import Idealize.ShloMosaic.Lib.StableHlo.Run
import Idealize.ShloMosaic.PureOps.Ideal

/-!
# The reference's run, read back at its result

The reference has no kernel: its @main is one straight line of host operations, the outlined functions
(`relu` on the edge rows, `_var` with its inner `_where`, `relu` on the node table) executed in place on the
buffers of their calls. Listed in order, the calls unfolded, that is eighty-six operations. Every weakly fair execution
of such a line terminates, and each buffer ends at the fold of the operations' results over the launch contents; at
the result buffer that fold is the composed term `RefValue.out` of the nine argument arrays, and at each argument
buffer it is what the launch put there, since no operation writes an argument.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's eighty-six operations in order, the calls unfolded: the first `relu` is three operations into the buffers of
    its call (the zero, its broadcast, the maximum), `_var` nineteen into its own and then `_where`'s three (the
    not-a-number word converted to its own type, its broadcast, the select), the last `relu` three again. -/
abbrev ops : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    nullary main_c (constantI S_ 32 0#32),
    unary main_c main_v4 (broadcastInDim S320000 ![] bcast_S_S320000 : (⟨S_, .i32⟩ : BufTy).Contents (Elt F) → (⟨S320000, .i32⟩ : BufTy).Contents (Elt F)),
    binary main_v3 main_v4 main_v5 (cmpi .slt : (⟨S320000, .i32⟩ : BufTy).Contents (Elt F) → (⟨S320000, .i32⟩ : BufTy).Contents (Elt F) → (⟨S320000, .i1⟩ : BufTy).Contents (Elt F)),
    nullary main_c_0 (constantI S_ 32 10000#32),
    unary main_c_0 main_v6 (broadcastInDim S320000 ![] bcast_S_S320000 : (⟨S_, .i32⟩ : BufTy).Contents (Elt F) → (⟨S320000, .i32⟩ : BufTy).Contents (Elt F)),
    binary main_v3 main_v6 main_v7 (addi : (⟨S320000, .i32⟩ : BufTy).Contents (Elt F) → (⟨S320000, .i32⟩ : BufTy).Contents (Elt F) → (⟨S320000, .i32⟩ : BufTy).Contents (Elt F)),
    ternary main_v5 main_v7 main_v3 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v8 main_v9 (broadcastInDim S320000x1 ![0] bcast_S320000_S320000x1_0 : (⟨S320000, .i32⟩ : BufTy).Contents (Elt F) → (⟨S320000x1, .i32⟩ : BufTy).Contents (Elt F)),
    binary main_arg0 main_v9 main_v10 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    nullary main_c_1 (constantI S_ 32 0#32),
    unary main_c_1 main_v11 (broadcastInDim S320000 ![] bcast_S_S320000 : (⟨S_, .i32⟩ : BufTy).Contents (Elt F) → (⟨S320000, .i32⟩ : BufTy).Contents (Elt F)),
    binary main_v1 main_v11 main_v12 (cmpi .slt : (⟨S320000, .i32⟩ : BufTy).Contents (Elt F) → (⟨S320000, .i32⟩ : BufTy).Contents (Elt F) → (⟨S320000, .i1⟩ : BufTy).Contents (Elt F)),
    nullary main_c_2 (constantI S_ 32 10000#32),
    unary main_c_2 main_v13 (broadcastInDim S320000 ![] bcast_S_S320000 : (⟨S_, .i32⟩ : BufTy).Contents (Elt F) → (⟨S320000, .i32⟩ : BufTy).Contents (Elt F)),
    binary main_v1 main_v13 main_v14 (addi : (⟨S320000, .i32⟩ : BufTy).Contents (Elt F) → (⟨S320000, .i32⟩ : BufTy).Contents (Elt F) → (⟨S320000, .i32⟩ : BufTy).Contents (Elt F)),
    ternary main_v12 main_v14 main_v1 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v15 main_v16 (broadcastInDim S320000x1 ![0] bcast_S320000_S320000x1_0 : (⟨S320000, .i32⟩ : BufTy).Contents (Elt F) → (⟨S320000x1, .i32⟩ : BufTy).Contents (Elt F)),
    binary main_arg0 main_v16 main_v17 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    binary main_v17 main_v10 main_v18 (subf : (⟨S320000x256, .f32⟩ : BufTy).Contents (Elt F) → (⟨S320000x256, .f32⟩ : BufTy).Contents (Elt F) → (⟨S320000x256, .f32⟩ : BufTy).Contents (Elt F)),
    nary ![main_v10, main_v18, main_arg2] main_v19 (fun u => concatenate S320000x768 1 [⟨S320000x256, u 0⟩, ⟨S320000x256, u 1⟩, ⟨S320000x256, u 2⟩] concatenates_S320000x256_S320000x256_S320000x256_S320000x768_d1),
    binary main_v19 main_arg3 main_v20 ((fun l r => Host.dotGeneral dot_S320000x768_S768x512_S320000x512_1_0_0_1_n_n none l r) : (⟨S320000x768, .f32⟩ : BufTy).Contents (Elt F) → (⟨S768x512, .f32⟩ : BufTy).Contents (Elt F) → (⟨S320000x512, .f32⟩ : BufTy).Contents (Elt F)),
    unary main_arg4 main_v21 (broadcastInDim S1x512 ![1] bcast_S512_S1x512_1 : (⟨S512, .f32⟩ : BufTy).Contents (Elt F) → (⟨S1x512, .f32⟩ : BufTy).Contents (Elt F)),
    unary main_v21 main_v22 (broadcastInDim S320000x512 ![0, 1] bcast_S1x512_S320000x512_0_1 : (⟨S1x512, .f32⟩ : BufTy).Contents (Elt F) → (⟨S320000x512, .f32⟩ : BufTy).Contents (Elt F)),
    binary main_v20 main_v22 main_v23 (addf : (⟨S320000x512, .f32⟩ : BufTy).Contents (Elt F) → (⟨S320000x512, .f32⟩ : BufTy).Contents (Elt F) → (⟨S320000x512, .f32⟩ : BufTy).Contents (Elt F)),
    TRef.nullary (.of main_call0_cst : StableHlo.TRef sig ⟨S_, .f32⟩) (constant S_ .f32 0x00000000#32),
    TRef.unary (.of main_call0_cst : StableHlo.TRef sig ⟨S_, .f32⟩) (.of main_call0_v0 : StableHlo.TRef sig ⟨S320000x512, .f32⟩) (broadcastInDim S320000x512 ![] bcast_S_S320000x512),
    TRef.binary (.of main_v23 : StableHlo.TRef sig ⟨S320000x512, .f32⟩) (.of main_call0_v0 : StableHlo.TRef sig ⟨S320000x512, .f32⟩) (.of main_v24 : StableHlo.TRef sig ⟨S320000x512, .f32⟩) maximumf,
    binary main_v24 main_arg5 main_v25 ((fun l r => Host.dotGeneral dot_S320000x512_S512x512_S320000x512_1_0_0_1_n_n none l r) : (⟨S320000x512, .f32⟩ : BufTy).Contents (Elt F) → (⟨S512x512, .f32⟩ : BufTy).Contents (Elt F) → (⟨S320000x512, .f32⟩ : BufTy).Contents (Elt F)),
    unary main_arg6 main_v26 (broadcastInDim S1x512 ![1] bcast_S512_S1x512_1 : (⟨S512, .f32⟩ : BufTy).Contents (Elt F) → (⟨S1x512, .f32⟩ : BufTy).Contents (Elt F)),
    unary main_v26 main_v27 (broadcastInDim S320000x512 ![0, 1] bcast_S1x512_S320000x512_0_1 : (⟨S1x512, .f32⟩ : BufTy).Contents (Elt F) → (⟨S320000x512, .f32⟩ : BufTy).Contents (Elt F)),
    binary main_v25 main_v27 main_v28 (addf : (⟨S320000x512, .f32⟩ : BufTy).Contents (Elt F) → (⟨S320000x512, .f32⟩ : BufTy).Contents (Elt F) → (⟨S320000x512, .f32⟩ : BufTy).Contents (Elt F)),
    nullary main_cst (constant S_ .f32 0x00000000#32),
    unary main_cst main_v29 (broadcastInDim S10000x512 ![] bcast_S_S10000x512 : (⟨S_, .f32⟩ : BufTy).Contents (Elt F) → (⟨S10000x512, .f32⟩ : BufTy).Contents (Elt F)),
    unary main_v3 main_v30 (broadcastInDim S320000x1 ![0] bcast_S320000_S320000x1_0 : (⟨S320000, .i32⟩ : BufTy).Contents (Elt F) → (⟨S320000x1, .i32⟩ : BufTy).Contents (Elt F)),
    ternary main_v29 main_v30 main_v28 main_v31 ((fun x i u => Host.scatterAdd scatter_S10000x512_S320000x1_S320000x512_1_0_0_1 x i u) : (⟨S10000x512, .f32⟩ : BufTy).Contents (Elt F) → (⟨S320000x1, .i32⟩ : BufTy).Contents (Elt F) → (⟨S320000x512, .f32⟩ : BufTy).Contents (Elt F) → (⟨S10000x512, .f32⟩ : BufTy).Contents (Elt F)),
    nullary main_cst_3 (constant S_ .f32 0x00000000#32),
    binary main_v31 main_cst_3 main_v32 ((fun x v => Host.reduceAdd x v reducesTo_S10000x512_S512_d0 h_S_) : (⟨S10000x512, .f32⟩ : BufTy).Contents (Elt F) → (⟨S_, .f32⟩ : BufTy).Contents (Elt F) → (⟨S512, .f32⟩ : BufTy).Contents (Elt F)),
    nullary main_cst_4 (constant S_ .f32 0x461C4000#32),
    unary main_cst_4 main_v33 (broadcastInDim S512 ![] bcast_S_S512 : (⟨S_, .f32⟩ : BufTy).Contents (Elt F) → (⟨S512, .f32⟩ : BufTy).Contents (Elt F)),
    binary main_v32 main_v33 main_v34 (Host.divf : (⟨S512, .f32⟩ : BufTy).Contents (Elt F) → (⟨S512, .f32⟩ : BufTy).Contents (Elt F) → (⟨S512, .f32⟩ : BufTy).Contents (Elt F)),
    nullary main_c_5 (constantI S_ 32 0#32),
    TRef.nullary (.of main_call1_cst : StableHlo.TRef sig ⟨S_, .f32⟩) (constant S_ .f32 0x00000000#32),
    TRef.binary (.of main_v31 : StableHlo.TRef sig ⟨S10000x512, .f32⟩) (.of main_call1_cst : StableHlo.TRef sig ⟨S_, .f32⟩) (.of main_call1_v0 : StableHlo.TRef sig ⟨S512, .f32⟩) (fun x v => Host.reduceAdd x v reducesTo_S10000x512_S512_d0 h_S_),
    TRef.unary (.of main_call1_v0 : StableHlo.TRef sig ⟨S512, .f32⟩) (.of main_call1_v1 : StableHlo.TRef sig ⟨S1x512, .f32⟩) (broadcastInDim S1x512 ![1] bcast_S512_S1x512_1),
    TRef.nullary (.of main_call1_cst_0 : StableHlo.TRef sig ⟨S_, .f32⟩) (constant S_ .f32 0x461C4000#32),
    TRef.unary (.of main_call1_cst_0 : StableHlo.TRef sig ⟨S_, .f32⟩) (.of main_call1_v2 : StableHlo.TRef sig ⟨S1x512, .f32⟩) (broadcastInDim S1x512 ![] bcast_S_S1x512),
    TRef.binary (.of main_call1_v1 : StableHlo.TRef sig ⟨S1x512, .f32⟩) (.of main_call1_v2 : StableHlo.TRef sig ⟨S1x512, .f32⟩) (.of main_call1_v3 : StableHlo.TRef sig ⟨S1x512, .f32⟩) Host.divf,
    TRef.unary (.of main_call1_v3 : StableHlo.TRef sig ⟨S1x512, .f32⟩) (.of main_call1_v4 : StableHlo.TRef sig ⟨S10000x512, .f32⟩) (broadcastInDim S10000x512 ![0, 1] bcast_S1x512_S10000x512_0_1),
    TRef.binary (.of main_v31 : StableHlo.TRef sig ⟨S10000x512, .f32⟩) (.of main_call1_v4 : StableHlo.TRef sig ⟨S10000x512, .f32⟩) (.of main_call1_v5 : StableHlo.TRef sig ⟨S10000x512, .f32⟩) subf,
    TRef.binary (.of main_call1_v5 : StableHlo.TRef sig ⟨S10000x512, .f32⟩) (.of main_call1_v5 : StableHlo.TRef sig ⟨S10000x512, .f32⟩) (.of main_call1_v6 : StableHlo.TRef sig ⟨S10000x512, .f32⟩) mulf,
    TRef.unary (.of main_c_5 : StableHlo.TRef sig ⟨S_, .i32⟩) (.of main_call1_v7 : StableHlo.TRef sig ⟨S_, .f32⟩) (sitofp .f32),
    TRef.nullary (.of main_call1_cst_1 : StableHlo.TRef sig ⟨S_, .f32⟩) (constant S_ .f32 0x461C4000#32),
    TRef.binary (.of main_call1_cst_1 : StableHlo.TRef sig ⟨S_, .f32⟩) (.of main_call1_v7 : StableHlo.TRef sig ⟨S_, .f32⟩) (.of main_call1_v8 : StableHlo.TRef sig ⟨S_, .f32⟩) subf,
    TRef.nullary (.of main_call1_cst_2 : StableHlo.TRef sig ⟨S_, .f32⟩) (constant S_ .f32 0x00000000#32),
    TRef.binary (.of main_call1_v6 : StableHlo.TRef sig ⟨S10000x512, .f32⟩) (.of main_call1_cst_2 : StableHlo.TRef sig ⟨S_, .f32⟩) (.of main_call1_v9 : StableHlo.TRef sig ⟨S512, .f32⟩) (fun x v => Host.reduceAdd x v reducesTo_S10000x512_S512_d0 h_S_),
    TRef.unary (.of main_call1_v8 : StableHlo.TRef sig ⟨S_, .f32⟩) (.of main_call1_v10 : StableHlo.TRef sig ⟨S512, .f32⟩) (broadcastInDim S512 ![] bcast_S_S512),
    TRef.binary (.of main_call1_v9 : StableHlo.TRef sig ⟨S512, .f32⟩) (.of main_call1_v10 : StableHlo.TRef sig ⟨S512, .f32⟩) (.of main_call1_v11 : StableHlo.TRef sig ⟨S512, .f32⟩) Host.divf,
    TRef.nullary (.of main_call1_cst_3 : StableHlo.TRef sig ⟨S_, .f32⟩) (constant S_ .f32 0x00000000#32),
    TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    TRef.nullary (.of main_call1_cst_4 : StableHlo.TRef sig ⟨S_, .f32⟩) (constant S_ .f32 0x7FC00000#32),
    TRef.unary (.of main_call1_cst_4 : StableHlo.TRef sig ⟨S_, .f32⟩) (.of main_call1_call0_v0 : StableHlo.TRef sig ⟨S_, .f32⟩) id,
    TRef.unary (.of main_call1_call0_v0 : StableHlo.TRef sig ⟨S_, .f32⟩) (.of main_call1_call0_v1 : StableHlo.TRef sig ⟨S512, .f32⟩) (broadcastInDim S512 ![] bcast_S_S512),
    TRef.ternary (.of main_call1_v12 : StableHlo.TRef sig ⟨S_, .i1⟩) (.of main_call1_v11 : StableHlo.TRef sig ⟨S512, .f32⟩) (.of main_call1_call0_v1 : StableHlo.TRef sig ⟨S512, .f32⟩) (.of main_v35 : StableHlo.TRef sig ⟨S512, .f32⟩) (fun p a b => select (broadcastInDim S512 ![] bcast_S_S512 p) a b),
    unary main_v34 main_v36 (broadcastInDim S1x512 ![1] bcast_S512_S1x512_1 : (⟨S512, .f32⟩ : BufTy).Contents (Elt F) → (⟨S1x512, .f32⟩ : BufTy).Contents (Elt F)),
    unary main_v36 main_v37 (broadcastInDim S10000x512 ![0, 1] bcast_S1x512_S10000x512_0_1 : (⟨S1x512, .f32⟩ : BufTy).Contents (Elt F) → (⟨S10000x512, .f32⟩ : BufTy).Contents (Elt F)),
    binary main_v31 main_v37 main_v38 (subf : (⟨S10000x512, .f32⟩ : BufTy).Contents (Elt F) → (⟨S10000x512, .f32⟩ : BufTy).Contents (Elt F) → (⟨S10000x512, .f32⟩ : BufTy).Contents (Elt F)),
    nullary main_cst_6 (constant S_ .f32 0x3727C5AC#32),
    unary main_cst_6 main_v39 (broadcastInDim S512 ![] bcast_S_S512 : (⟨S_, .f32⟩ : BufTy).Contents (Elt F) → (⟨S512, .f32⟩ : BufTy).Contents (Elt F)),
    binary main_v35 main_v39 main_v40 (addf : (⟨S512, .f32⟩ : BufTy).Contents (Elt F) → (⟨S512, .f32⟩ : BufTy).Contents (Elt F) → (⟨S512, .f32⟩ : BufTy).Contents (Elt F)),
    unary main_v40 main_v41 (Host.rsqrt : (⟨S512, .f32⟩ : BufTy).Contents (Elt F) → (⟨S512, .f32⟩ : BufTy).Contents (Elt F)),
    unary main_v41 main_v42 (broadcastInDim S1x512 ![1] bcast_S512_S1x512_1 : (⟨S512, .f32⟩ : BufTy).Contents (Elt F) → (⟨S1x512, .f32⟩ : BufTy).Contents (Elt F)),
    unary main_v42 main_v43 (broadcastInDim S10000x512 ![0, 1] bcast_S1x512_S10000x512_0_1 : (⟨S1x512, .f32⟩ : BufTy).Contents (Elt F) → (⟨S10000x512, .f32⟩ : BufTy).Contents (Elt F)),
    binary main_v38 main_v43 main_v44 (mulf : (⟨S10000x512, .f32⟩ : BufTy).Contents (Elt F) → (⟨S10000x512, .f32⟩ : BufTy).Contents (Elt F) → (⟨S10000x512, .f32⟩ : BufTy).Contents (Elt F)),
    unary main_arg7 main_v45 (broadcastInDim S1x512 ![1] bcast_S512_S1x512_1 : (⟨S512, .f32⟩ : BufTy).Contents (Elt F) → (⟨S1x512, .f32⟩ : BufTy).Contents (Elt F)),
    unary main_v45 main_v46 (broadcastInDim S10000x512 ![0, 1] bcast_S1x512_S10000x512_0_1 : (⟨S1x512, .f32⟩ : BufTy).Contents (Elt F) → (⟨S10000x512, .f32⟩ : BufTy).Contents (Elt F)),
    binary main_v44 main_v46 main_v47 (mulf : (⟨S10000x512, .f32⟩ : BufTy).Contents (Elt F) → (⟨S10000x512, .f32⟩ : BufTy).Contents (Elt F) → (⟨S10000x512, .f32⟩ : BufTy).Contents (Elt F)),
    unary main_arg8 main_v48 (broadcastInDim S1x512 ![1] bcast_S512_S1x512_1 : (⟨S512, .f32⟩ : BufTy).Contents (Elt F) → (⟨S1x512, .f32⟩ : BufTy).Contents (Elt F)),
    unary main_v48 main_v49 (broadcastInDim S10000x512 ![0, 1] bcast_S1x512_S10000x512_0_1 : (⟨S1x512, .f32⟩ : BufTy).Contents (Elt F) → (⟨S10000x512, .f32⟩ : BufTy).Contents (Elt F)),
    binary main_v47 main_v49 main_v50 (addf : (⟨S10000x512, .f32⟩ : BufTy).Contents (Elt F) → (⟨S10000x512, .f32⟩ : BufTy).Contents (Elt F) → (⟨S10000x512, .f32⟩ : BufTy).Contents (Elt F)),
    TRef.nullary (.of main_call2_cst : StableHlo.TRef sig ⟨S_, .f32⟩) (constant S_ .f32 0x00000000#32),
    TRef.unary (.of main_call2_cst : StableHlo.TRef sig ⟨S_, .f32⟩) (.of main_call2_v0 : StableHlo.TRef sig ⟨S10000x512, .f32⟩) (broadcastInDim S10000x512 ![] bcast_S_S10000x512),
    TRef.binary (.of main_v50 : StableHlo.TRef sig ⟨S10000x512, .f32⟩) (.of main_call2_v0 : StableHlo.TRef sig ⟨S10000x512, .f32⟩) (.of main_v51 : StableHlo.TRef sig ⟨S10000x512, .f32⟩) maximumf ]

set_option maxRecDepth 8192 in
set_option maxHeartbeats 8000000 in
/-- @main is that straight line: the functions' definitions unfolded at their calls and the call records at
    their fields, both sides are one chain of operation steps once sequencing is re-associated. -/
theorem main_eq (c : Dev nD) : main (F := F) c = seq ops := by
  simp only [main, main_part0, main_part1, fn_relu.body, fn_var.body, fn_where.body, fn_relu_0.body, seq, bind_assoc, pure_bind]

/-- The signature scopes no buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., unary_bufs_sub .., ternary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub ..⟩

attribute [local irreducible] Host.gather Host.scatterAdd Host.reduceAdd in
set_option maxRecDepth 8192 in
set_option maxHeartbeats 4000000 in
/-- The fold at the result buffer is `RefValue.out` of the arguments' contents. Each operation's result is read at
    its own result buffer as its function of its operands' contents, and at any other buffer as what was there
    (two references are told apart by computation); the concatenation's three operands are read one by one. What is
    left is the composed term with the typed references' transports, the identity at these literal references, and
    `RefValue.out` unfolds to the same term. The gather, the scatter-add and the column sums are kept folded
    meanwhile: the comparison never looks inside them. -/
theorem out_eq (V : Valuation τ sig (Elt F)) :
    after ops V (main_v51 : DevRef τ sig)
      = RefValue.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  simp (disch := decide) only [after_cons, after_nil, nullary_result', unary_result', binary_result', ternary_result', reshape_result',
    Cert.Nary3.nary3_result_apply', nullary_result_ne', unary_result_ne', binary_result_ne', ternary_result_ne', reshape_result_ne',
    nary_result_ne']
  unfold Cert.Nary3.apply3
  rfl

/-! No operation writes an argument buffer: each argument ends at its launch contents. -/

theorem arg0_eq (V : Valuation τ sig (Elt F)) :
    after ops V (main_arg0 : DevRef τ sig) = V (main_arg0 : DevRef τ sig) := by
  simp (disch := decide) only [after_cons, after_nil, nullary_result_ne', unary_result_ne', binary_result_ne', ternary_result_ne', reshape_result_ne',
    nary_result_ne']

theorem arg1_eq (V : Valuation τ sig (Elt F)) :
    after ops V (main_arg1 : DevRef τ sig) = V (main_arg1 : DevRef τ sig) := by
  simp (disch := decide) only [after_cons, after_nil, nullary_result_ne', unary_result_ne', binary_result_ne', ternary_result_ne', reshape_result_ne',
    nary_result_ne']

theorem arg2_eq (V : Valuation τ sig (Elt F)) :
    after ops V (main_arg2 : DevRef τ sig) = V (main_arg2 : DevRef τ sig) := by
  simp (disch := decide) only [after_cons, after_nil, nullary_result_ne', unary_result_ne', binary_result_ne', ternary_result_ne', reshape_result_ne',
    nary_result_ne']

theorem arg3_eq (V : Valuation τ sig (Elt F)) :
    after ops V (main_arg3 : DevRef τ sig) = V (main_arg3 : DevRef τ sig) := by
  simp (disch := decide) only [after_cons, after_nil, nullary_result_ne', unary_result_ne', binary_result_ne', ternary_result_ne', reshape_result_ne',
    nary_result_ne']

theorem arg4_eq (V : Valuation τ sig (Elt F)) :
    after ops V (main_arg4 : DevRef τ sig) = V (main_arg4 : DevRef τ sig) := by
  simp (disch := decide) only [after_cons, after_nil, nullary_result_ne', unary_result_ne', binary_result_ne', ternary_result_ne', reshape_result_ne',
    nary_result_ne']

theorem arg5_eq (V : Valuation τ sig (Elt F)) :
    after ops V (main_arg5 : DevRef τ sig) = V (main_arg5 : DevRef τ sig) := by
  simp (disch := decide) only [after_cons, after_nil, nullary_result_ne', unary_result_ne', binary_result_ne', ternary_result_ne', reshape_result_ne',
    nary_result_ne']

theorem arg6_eq (V : Valuation τ sig (Elt F)) :
    after ops V (main_arg6 : DevRef τ sig) = V (main_arg6 : DevRef τ sig) := by
  simp (disch := decide) only [after_cons, after_nil, nullary_result_ne', unary_result_ne', binary_result_ne', ternary_result_ne', reshape_result_ne',
    nary_result_ne']

theorem arg7_eq (V : Valuation τ sig (Elt F)) :
    after ops V (main_arg7 : DevRef τ sig) = V (main_arg7 : DevRef τ sig) := by
  simp (disch := decide) only [after_cons, after_nil, nullary_result_ne', unary_result_ne', binary_result_ne', ternary_result_ne', reshape_result_ne',
    nary_result_ne']

theorem arg8_eq (V : Valuation τ sig (Elt F)) :
    after ops V (main_arg8 : DevRef τ sig) = V (main_arg8 : DevRef τ sig) := by
  simp (disch := decide) only [after_cons, after_nil, nullary_result_ne', unary_result_ne', binary_result_ne', ternary_result_ne', reshape_result_ne',
    nary_result_ne']

/-- For any float values, from any memory with zero counters: every weakly fair execution of @main terminates with
    the result buffer at `RefValue.out` of the arguments' launch contents and the arguments unchanged. -/
theorem run_at (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v51)
          = RefValue.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v51).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_seq scopedRefs_eq scopedSems_eq defs main (fun _ => ops) main_eq (fun _ => ops_sub) m ρ)

/-- The same at the ideal float values. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51)
          = RefValue.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  run_at m ρ

end Cert.ReferenceIdeal.RefRun

end
-- ==== Proof.lean ====
/- The certificate of a graph block's edge kernel against its jnp reference, over the extended reals.

   The kernel program gathers, for each of 320000 edges, the feature rows of the edge's target and source nodes,
   runs ONE pipelined kernel over blocks of 1280 edges — two dense layers,
   `max(x_i · W1a + (x_j − x_i) · W1b + attr · W1c + b1, 0) · W2 + b2`, with `W1` cut into three bands of 256 rows —,
   adds the edges' rows up per target node, and normalises the node table column by column (batch mean and
   variance, scale, shift, cut-off at zero). The reference joins `[x_i, x_j − x_i, attr]` into one row of 768 and
   multiplies by the whole `W1`; everything else it does is the same operations in the same order.

   On the extended reals the two first layers agree because a sum over 768 indices is the sum of its three
   stretches of 256 (addition there is associative and commutative, infinities included), so no input need
   be finite; the roundings to sixteen bits the kernel makes before its products are the identity there. The
   kernel's frames are the generated ones; the reference's frame is its run with the result dropped. -/
import proofs.«163005_j43508018708924_1_alg».proof.Defs
import proofs.«163005_j43508018708924_1_alg».proof.Proof.Gen.Kernel
import proofs.«163005_j43508018708924_1_alg».proof.Proof.Gen.Kernel.Frame
import proofs.«163005_j43508018708924_1_alg».proof.Proof.Gen.KernelIdeal
import proofs.«163005_j43508018708924_1_alg».proof.Proof.Gen.KernelIdeal.Frame
import proofs.«163005_j43508018708924_1_alg».proof.Proof.Gen.ReferenceIdeal
import proofs.«163005_j43508018708924_1_alg».proof.Proof.Gen.Pre_finite_inputs
import proofs.«163005_j43508018708924_1_alg».proof.Proof.KernelValue
import proofs.«163005_j43508018708924_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefRun.run m ρ)

/-- From memories that agree on the nine arguments both programs end with the result at ONE function of those
    arguments: the kernel program's run and the reference's run are both stated with `RefValue.out`. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5, a6, a7, a8⟩ := hagree c
  rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
